-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048x32 : Shape := ⟨3, ![1024, 2048, 32]⟩
abbrev S_ : Shape := ⟨0, ![]⟩

class Facts : Prop where
  bcast_S_S1024x2048x32 : S_.BroadcastsInDim S1024x2048x32 (![] : Fin 0 → Fin S1024x2048x32.rank)
  reducesTo_S1024x2048x32_S_d0_1_2 : S1024x2048x32.ReducesTo [0, 1, 2] S_
  h_S_ : 0 < S_.numel

variable [Facts]

def fn {F : FTy → Type} [FloatOps F] (main_arg0 : FVec F S1024x2048x32 .f32) : IVec S_ 1 :=
  let main_v0 : FVec F S1024x2048x32 .f32 := Host.absf main_arg0
  let main_cst : FVec F S_ .f32 := constant S_ .f32 0x7F800000#32
  let main_v1 : FVec F S1024x2048x32 .f32 := broadcastInDim S1024x2048x32 ![] bcast_S_S1024x2048x32 main_cst
  let main_v2 : IVec S1024x2048x32 1 := cmpf .olt main_v0 main_v1
  let main_c : IVec S_ 1 := constantI S_ 1 1#1
  let main_v3 : IVec S_ 1 := (fun x v => Host.reduce IntOp.andi x v reducesTo_S1024x2048x32_S_d0_1_2 h_S_) main_v2 main_c
  main_v3
-- ==== Kernel.lean ====
abbrev S1024x2048x32 : Shape := ⟨3, ![1024, 2048, 32]⟩
abbrev S1024x2048x5 : Shape := ⟨3, ![1024, 2048, 5]⟩
abbrev S128x64x32 : Shape := ⟨3, ![128, 64, 32]⟩
abbrev S128x64x5 : Shape := ⟨3, ![128, 64, 5]⟩
abbrev S128x64x8 : Shape := ⟨3, ![128, 64, 8]⟩
abbrev S128x64x23 : Shape := ⟨3, ![128, 64, 23]⟩
abbrev S128x64x1 : Shape := ⟨3, ![128, 64, 1]⟩

abbrev nBuf : Space → Nat
  | .hbm => 2
  | .vmem => 4
  | .smem => 0
  | _ => 0

abbrev bufTy : (tb : Table) → Fin (tcTables nBuf tb) → BufTy
  | .hbm, ⟨0, _⟩ => ⟨S1024x2048x32, .f32⟩
  | .hbm, ⟨1, _⟩ => ⟨S1024x2048x5, .f32⟩
  | .local _ .vmem, ⟨0, _⟩ => ⟨S128x64x32, .f32⟩
  | .local _ .vmem, ⟨1, _⟩ => ⟨S128x64x32, .f32⟩
  | .local _ .vmem, ⟨2, _⟩ => ⟨S128x64x5, .f32⟩
  | .local _ .vmem, ⟨3, _⟩ => ⟨S128x64x5, .f32⟩
  | _, _ => ⟨S1024x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x64x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S128x64x32_S128x64x32_0_0_0 : ∀ a, (![0, 0, 0] : Fin 3 → Nat) a + S128x64x32.size a ≤ S128x64x32.size a
  h_S128x64x32 : 0 < S128x64x32.numel
  slices_S128x64x32_o0_0_1_S128x64x8 : S128x64x32.Slices ![0, 0, 1] S128x64x8
  slices_S128x64x32_o0_0_9_S128x64x23 : S128x64x32.Slices ![0, 0, 9] S128x64x23
  slices_S128x64x8_o0_0_7_S128x64x1 : S128x64x8.Slices ![0, 0, 7] S128x64x1
  slices_S128x64x8_o0_0_6_S128x64x1 : S128x64x8.Slices ![0, 0, 6] S128x64x1
  slices_S128x64x8_o0_0_5_S128x64x1 : S128x64x8.Slices ![0, 0, 5] S128x64x1
  slices_S128x64x8_o0_0_4_S128x64x1 : S128x64x8.Slices ![0, 0, 4] S128x64x1
  slices_S128x64x8_o0_0_3_S128x64x1 : S128x64x8.Slices ![0, 0, 3] S128x64x1
  slices_S128x64x8_o0_0_2_S128x64x1 : S128x64x8.Slices ![0, 0, 2] S128x64x1
  slices_S128x64x8_o0_0_1_S128x64x1 : S128x64x8.Slices ![0, 0, 1] S128x64x1
  slices_S128x64x8_o0_0_0_S128x64x1 : S128x64x8.Slices ![0, 0, 0] S128x64x1
  slices_S128x64x23_o0_0_0_S128x64x1 : S128x64x23.Slices ![0, 0, 0] S128x64x1
  slices_S128x64x23_o0_0_1_S128x64x1 : S128x64x23.Slices ![0, 0, 1] S128x64x1
  slices_S128x64x23_o0_0_2_S128x64x1 : S128x64x23.Slices ![0, 0, 2] S128x64x1
  slices_S128x64x23_o0_0_3_S128x64x1 : S128x64x23.Slices ![0, 0, 3] S128x64x1
  concatenates_S128x64x1_S128x64x1_S128x64x1_S128x64x1_S128x64x1_S128x64x5_d2 : Shape.Concatenates [S128x64x1, S128x64x1, S128x64x1, S128x64x1, S128x64x1] S128x64x5 2
  inb_S128x64x5_S128x64x5_0_0_0 : ∀ a, (![0, 0, 0] : Fin 3 → Nat) a + S128x64x5.size a ≤ S128x64x5.size a
  h_S128x64x5 : 0 < S128x64x5.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x32.size a ≤ S1024x2048x32.size a
  hwx0_0 : ∀ i : grid0.Coords, EltTy.bits .f32 = 32 ∨ (Rect.block (s := S1024x2048x32) S128x64x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x5.size a ≤ S1024x2048x5.size a
  hwx0_1 : ∀ i : grid0.Coords, EltTy.bits .f32 = 32 ∨ (Rect.block (s := S1024x2048x5) S128x64x5.size (cc0_transform_1 i) (hinb0_1 i)).WholeWords (EltTy.packing .f32)

variable [Facts₀]

abbrev win0_0 : Pipeline.Window sig grid0 :=
  Pipeline.Window.ofSpec (Memref.whole main_arg0) S128x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64x5.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x2048x32 : Shape := ⟨3, ![1024, 2048, 32]⟩
abbrev S1024x2048x8 : Shape := ⟨3, ![1024, 2048, 8]⟩
abbrev S1024x2048x23 : Shape := ⟨3, ![1024, 2048, 23]⟩
abbrev S_ : Shape := ⟨0, ![]⟩
abbrev S1 : Shape := ⟨1, ![1]⟩
abbrev S1024x2048 : Shape := ⟨2, ![1024, 2048]⟩
abbrev S1024x2048x1 : Shape := ⟨3, ![1024, 2048, 1]⟩
abbrev S1024x2048x5 : Shape := ⟨3, ![1024, 2048, 5]⟩

abbrev nBuf : Space → Nat
  | .hbm => 252
  | .vmem => 0
  | .smem => 0
  | _ => 0

abbrev hbmTy0_0 (i : Nat) : BufTy := match i % 128 with
  | 0 => ⟨S1024x2048x32, .f32⟩
  | 1 => ⟨S1024x2048x8, .f32⟩
  | 2 => ⟨S1024x2048x23, .f32⟩
  | 3 => ⟨S_, .f32⟩
  | 4 => ⟨S1024x2048x8, .f32⟩
  | 5 => ⟨S_, .i32⟩
  | 6 => ⟨S1, .i32⟩
  | 7 => ⟨S_, .f32⟩
  | 8 => ⟨S1024x2048, .f32⟩
  | 9 => ⟨S1024x2048x8, .f32⟩
  | 10 => ⟨S_, .f32⟩
  | 11 => ⟨S1024x2048x1, .f32⟩
  | 12 => ⟨S1024x2048x1, .f32⟩
  | 13 => ⟨S1024x2048x1, .f32⟩
  | 14 => ⟨S1024x2048x1, .f32⟩
  | 15 => ⟨S_, .f32⟩
  | 16 => ⟨S1024x2048x1, .f32⟩
  | 17 => ⟨S1024x2048x1, .f32⟩
  | 18 => ⟨S1024x2048x1, .f32⟩
  | 19 => ⟨S1024x2048x1, .f32⟩
  | 20 => ⟨S1024x2048x1, .f32⟩
  | 21 => ⟨S_, .f32⟩
  | 22 => ⟨S1024x2048x1, .f32⟩
  | 23 => ⟨S1024x2048x1, .f32⟩
  | 24 => ⟨S1024x2048x1, .f32⟩
  | 25 => ⟨S1024x2048x1, .f32⟩
  | 26 => ⟨S1024x2048x1, .f32⟩
  | 27 => ⟨S1024x2048x1, .f32⟩
  | 28 => ⟨S1024x2048x1, .f32⟩
  | 29 => ⟨S1024x2048x1, .f32⟩
  | 30 => ⟨S1024x2048x1, .f32⟩
  | 31 => ⟨S1024x2048x1, .f32⟩
  | 32 => ⟨S1024x2048x1, .f32⟩
  | 33 => ⟨S1024x2048x1, .f32⟩
  | 34 => ⟨S_, .f32⟩
  | 35 => ⟨S1024x2048x1, .f32⟩
  | 36 => ⟨S1024x2048x1, .f32⟩
  | 37 => ⟨S1024x2048x1, .f32⟩
  | 38 => ⟨S1024x2048x1, .f32⟩
  | 39 => ⟨S1024x2048x1, .f32⟩
  | 40 => ⟨S_, .f32⟩
  | 41 => ⟨S1024x2048x1, .f32⟩
  | 42 => ⟨S1024x2048x1, .f32⟩
  | 43 => ⟨S1024x2048x1, .f32⟩
  | 44 => ⟨S1024x2048x1, .f32⟩
  | 45 => ⟨S1024x2048x1, .f32⟩
  | 46 => ⟨S1024x2048x1, .f32⟩
  | 47 => ⟨S1024x2048x1, .f32⟩
  | 48 => ⟨S1024x2048x1, .f32⟩
  | 49 => ⟨S1024x2048x1, .f32⟩
  | 50 => ⟨S1024x2048x1, .f32⟩
  | 51 => ⟨S1024x2048x1, .f32⟩
  | 52 => ⟨S1024x2048x1, .f32⟩
  | 53 => ⟨S_, .f32⟩
  | 54 => ⟨S1024x2048x1, .f32⟩
  | 55 => ⟨S1024x2048x1, .f32⟩
  | 56 => ⟨S1024x2048x1, .f32⟩
  | 57 => ⟨S1024x2048x1, .f32⟩
  | 58 => ⟨S1024x2048x1, .f32⟩
  | 59 => ⟨S_, .f32⟩
  | 60 => ⟨S1024x2048x1, .f32⟩
  | 61 => ⟨S1024x2048x1, .f32⟩
  | 62 => ⟨S1024x2048x1, .f32⟩
  | 63 => ⟨S1024x2048x1, .f32⟩
  | 64 => ⟨S1024x2048x1, .f32⟩
  | 65 => ⟨S1024x2048x1, .f32⟩
  | 66 => ⟨S1024x2048x1, .f32⟩
  | 67 => ⟨S1024x2048x1, .f32⟩
  | 68 => ⟨S1024x2048x1, .f32⟩
  | 69 => ⟨S1024x2048x1, .f32⟩
  | 70 => ⟨S1024x2048x1, .f32⟩
  | 71 => ⟨S1024x2048x1, .f32⟩
  | 72 => ⟨S_, .f32⟩
  | 73 => ⟨S1024x2048x1, .f32⟩
  | 74 => ⟨S1024x2048x1, .f32⟩
  | 75 => ⟨S1024x2048x1, .f32⟩
  | 76 => ⟨S1024x2048x1, .f32⟩
  | 77 => ⟨S1024x2048x1, .f32⟩
  | 78 => ⟨S_, .f32⟩
  | 79 => ⟨S1024x2048x1, .f32⟩
  | 80 => ⟨S1024x2048x1, .f32⟩
  | 81 => ⟨S1024x2048x1, .f32⟩
  | 82 => ⟨S1024x2048x1, .f32⟩
  | 83 => ⟨S1024x2048x1, .f32⟩
  | 84 => ⟨S1024x2048x1, .f32⟩
  | 85 => ⟨S1024x2048x1, .f32⟩
  | 86 => ⟨S1024x2048x1, .f32⟩
  | 87 => ⟨S1024x2048x1, .f32⟩
  | 88 => ⟨S1024x2048x1, .f32⟩
  | 89 => ⟨S1024x2048x1, .f32⟩
  | 90 => ⟨S1024x2048x1, .f32⟩
  | 91 => ⟨S_, .f32⟩
  | 92 => ⟨S1024x2048x1, .f32⟩
  | 93 => ⟨S1024x2048x1, .f32⟩
  | 94 => ⟨S1024x2048x1, .f32⟩
  | 95 => ⟨S1024x2048x1, .f32⟩
  | 96 => ⟨S1024x2048x1, .f32⟩
  | 97 => ⟨S_, .f32⟩
  | 98 => ⟨S1024x2048x1, .f32⟩
  | 99 => ⟨S1024x2048x1, .f32⟩
  | 100 => ⟨S1024x2048x1, .f32⟩
  | 101 => ⟨S1024x2048x1, .f32⟩
  | 102 => ⟨S1024x2048x1, .f32⟩
  | 103 => ⟨S1024x2048x1, .f32⟩
  | 104 => ⟨S1024x2048x1, .f32⟩
  | 105 => ⟨S1024x2048x1, .f32⟩
  | 106 => ⟨S1024x2048x1, .f32⟩
  | 107 => ⟨S1024x2048x1, .f32⟩
  | 108 => ⟨S1024x2048x1, .f32⟩
  | 109 => ⟨S1024x2048x1, .f32⟩
  | 110 => ⟨S_, .f32⟩
  | 111 => ⟨S1024x2048x1, .f32⟩
  | 112 => ⟨S1024x2048x1, .f32⟩
  | 113 => ⟨S1024x2048x1, .f32⟩
  | 114 => ⟨S1024x2048x1, .f32⟩
  | 115 => ⟨S1024x2048x1, .f32⟩
  | 116 => ⟨S_, .f32⟩
  | 117 => ⟨S1024x2048x1, .f32⟩
  | 118 => ⟨S1024x2048x1, .f32⟩
  | 119 => ⟨S1024x2048x1, .f32⟩
  | 120 => ⟨S1024x2048x1, .f32⟩
  | 121 => ⟨S1024x2048x1, .f32⟩
  | 122 => ⟨S1024x2048x1, .f32⟩
  | 123 => ⟨S1024x2048x1, .f32⟩
  | 124 => ⟨S1024x2048x1, .f32⟩
  | 125 => ⟨S1024x2048x1, .f32⟩
  | 126 => ⟨S1024x2048x1, .f32⟩
  | 127 => ⟨S1024x2048x1, .f32⟩
  | _ => ⟨S1024x2048x32, .f32⟩

abbrev hbmTy0_1 (i : Nat) : BufTy := match i % 128 with
  | 0 => ⟨S1024x2048x1, .f32⟩
  | 1 => ⟨S_, .f32⟩
  | 2 => ⟨S1024x2048x1, .f32⟩
  | 3 => ⟨S1024x2048x1, .f32⟩
  | 4 => ⟨S1024x2048x1, .f32⟩
  | 5 => ⟨S1024x2048x1, .f32⟩
  | 6 => ⟨S1024x2048x1, .f32⟩
  | 7 => ⟨S_, .f32⟩
  | 8 => ⟨S1024x2048x1, .f32⟩
  | 9 => ⟨S1024x2048x1, .f32⟩
  | 10 => ⟨S1024x2048x1, .f32⟩
  | 11 => ⟨S1024x2048x1, .f32⟩
  | 12 => ⟨S1024x2048x1, .f32⟩
  | 13 => ⟨S1024x2048x1, .f32⟩
  | 14 => ⟨S1024x2048x1, .f32⟩
  | 15 => ⟨S1024x2048x1, .f32⟩
  | 16 => ⟨S1024x2048x1, .f32⟩
  | 17 => ⟨S1024x2048x1, .f32⟩
  | 18 => ⟨S1024x2048x1, .f32⟩
  | 19 => ⟨S1024x2048x1, .f32⟩
  | 20 => ⟨S_, .f32⟩
  | 21 => ⟨S1024x2048x1, .f32⟩
  | 22 => ⟨S1024x2048x1, .f32⟩
  | 23 => ⟨S1024x2048x1, .f32⟩
  | 24 => ⟨S1024x2048x1, .f32⟩
  | 25 => ⟨S1024x2048x1, .f32⟩
  | 26 => ⟨S_, .f32⟩
  | 27 => ⟨S1024x2048x1, .f32⟩
  | 28 => ⟨S1024x2048x1, .f32⟩
  | 29 => ⟨S1024x2048x1, .f32⟩
  | 30 => ⟨S1024x2048x1, .f32⟩
  | 31 => ⟨S1024x2048x1, .f32⟩
  | 32 => ⟨S1024x2048x1, .f32⟩
  | 33 => ⟨S1024x2048x1, .f32⟩
  | 34 => ⟨S1024x2048x1, .f32⟩
  | 35 => ⟨S1024x2048x1, .f32⟩
  | 36 => ⟨S_, .f32⟩
  | 37 => ⟨S1024x2048x1, .f32⟩
  | 38 => ⟨S1024x2048x1, .f32⟩
  | 39 => ⟨S_, .f32⟩
  | 40 => ⟨S1024x2048x1, .f32⟩
  | 41 => ⟨S1024x2048x1, .f32⟩
  | 42 => ⟨S_, .f32⟩
  | 43 => ⟨S1024x2048x1, .f32⟩
  | 44 => ⟨S1024x2048x1, .f32⟩
  | 45 => ⟨S_, .f32⟩
  | 46 => ⟨S1024x2048x1, .f32⟩
  | 47 => ⟨S1024x2048x1, .f32⟩
  | 48 => ⟨S_, .f32⟩
  | 49 => ⟨S1024x2048x1, .f32⟩
  | 50 => ⟨S1024x2048x1, .f32⟩
  | 51 => ⟨S_, .f32⟩
  | 52 => ⟨S1024x2048x1, .f32⟩
  | 53 => ⟨S1024x2048x1, .f32⟩
  | 54 => ⟨S_, .f32⟩
  | 55 => ⟨S1024x2048x1, .f32⟩
  | 56 => ⟨S1024x2048x1, .f32⟩
  | 57 => ⟨S_, .f32⟩
  | 58 => ⟨S1024x2048x1, .f32⟩
  | 59 => ⟨S1024x2048x1, .f32⟩
  | 60 => ⟨S1024x2048x1, .f32⟩
  | 61 => ⟨S1024x2048x1, .f32⟩
  | 62 => ⟨S1024x2048x1, .f32⟩
  | 63 => ⟨S1024x2048x1, .f32⟩
  | 64 => ⟨S1024x2048x1, .f32⟩
  | 65 => ⟨S1024x2048x1, .f32⟩
  | 66 => ⟨S1024x2048x1, .f32⟩
  | 67 => ⟨S1024x2048x1, .f32⟩
  | 68 => ⟨S1024x2048x1, .f32⟩
  | 69 => ⟨S1024x2048x1, .f32⟩
  | 70 => ⟨S1024x2048x1, .f32⟩
  | 71 => ⟨S1024x2048x1, .f32⟩
  | 72 => ⟨S1024x2048x1, .f32⟩
  | 73 => ⟨S1024x2048x1, .f32⟩
  | 74 => ⟨S1024x2048x1, .f32⟩
  | 75 => ⟨S1024x2048x1, .f32⟩
  | 76 => ⟨S1024x2048x1, .f32⟩
  | 77 => ⟨S1024x2048x1, .f32⟩
  | 78 => ⟨S1024x2048x1, .f32⟩
  | 79 => ⟨S1024x2048x1, .f32⟩
  | 80 => ⟨S1024x2048x1, .f32⟩
  | 81 => ⟨S1024x2048x1, .f32⟩
  | 82 => ⟨S1024x2048x1, .f32⟩
  | 83 => ⟨S1024x2048x1, .f32⟩
  | 84 => ⟨S1024x2048x1, .f32⟩
  | 85 => ⟨S1024x2048x1, .f32⟩
  | 86 => ⟨S1024x2048x1, .f32⟩
  | 87 => ⟨S1024x2048x1, .f32⟩
  | 88 => ⟨S1024x2048x1, .f32⟩
  | 89 => ⟨S1024x2048x1, .f32⟩
  | 90 => ⟨S1024x2048x1, .f32⟩
  | 91 => ⟨S1024x2048x1, .f32⟩
  | 92 => ⟨S1024x2048x1, .f32⟩
  | 93 => ⟨S1024x2048x1, .f32⟩
  | 94 => ⟨S1024x2048x1, .f32⟩
  | 95 => ⟨S1024x2048x1, .f32⟩
  | 96 => ⟨S1024x2048x1, .f32⟩
  | 97 => ⟨S1024x2048x1, .f32⟩
  | 98 => ⟨S1024x2048x1, .f32⟩
  | 99 => ⟨S1024x2048x1, .f32⟩
  | 100 => ⟨S1024x2048x1, .f32⟩
  | 101 => ⟨S1024x2048x1, .f32⟩
  | 102 => ⟨S1024x2048x1, .f32⟩
  | 103 => ⟨S1024x2048x1, .f32⟩
  | 104 => ⟨S1024x2048x1, .f32⟩
  | 105 => ⟨S1024x2048x1, .f32⟩
  | 106 => ⟨S1024x2048x1, .f32⟩
  | 107 => ⟨S1024x2048x1, .f32⟩
  | 108 => ⟨S1024x2048x1, .f32⟩
  | 109 => ⟨S1024x2048x1, .f32⟩
  | 110 => ⟨S1024x2048x1, .f32⟩
  | 111 => ⟨S1024x2048x1, .f32⟩
  | 112 => ⟨S1024x2048x1, .f32⟩
  | 113 => ⟨S1024x2048x1, .f32⟩
  | 114 => ⟨S1024x2048x1, .f32⟩
  | 115 => ⟨S1024x2048x1, .f32⟩
  | 116 => ⟨S1024x2048x1, .f32⟩
  | 117 => ⟨S1024x2048x1, .f32⟩
  | 118 => ⟨S1024x2048x1, .f32⟩
  | 119 => ⟨S1024x2048x1, .f32⟩
  | 120 => ⟨S1024x2048x1, .f32⟩
  | 121 => ⟨S1024x2048x1, .f32⟩
  | 122 => ⟨S1024x2048x1, .f32⟩
  | 123 => ⟨S1024x2048x5, .f32⟩
  | _ => ⟨S1024x2048x32, .f32⟩

abbrev hbmTy (i : Nat) : BufTy := match i / 128 with
  | 0 => hbmTy0_0 i
  | 1 => hbmTy0_1 i
  | _ => ⟨S1024x2048x32, .f32⟩

abbrev bufTy : (tb : Table) → Fin (tcTables nBuf tb) → BufTy
  | .hbm, ⟨i, _⟩ => hbmTy i
  | _, _ => ⟨S1024x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_7 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_8 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_9 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_10 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_11 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_12 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_13 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_cst_14 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_15 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_cst_16 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_cst_17 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_18 : Ref sig .tc := ⟨.hbm, 164, rfl⟩
abbrev main_v143 : Ref sig .tc := ⟨.hbm, 165, rfl⟩
abbrev main_v144 : Ref sig .tc := ⟨.hbm, 166, rfl⟩
abbrev main_cst_19 : Ref sig .tc := ⟨.hbm, 167, rfl⟩
abbrev main_v145 : Ref sig .tc := ⟨.hbm, 168, rfl⟩
abbrev main_v146 : Ref sig .tc := ⟨.hbm, 169, rfl⟩
abbrev main_cst_20 : Ref sig .tc := ⟨.hbm, 170, rfl⟩
abbrev main_v147 : Ref sig .tc := ⟨.hbm, 171, rfl⟩
abbrev main_v148 : Ref sig .tc := ⟨.hbm, 172, rfl⟩
abbrev main_cst_21 : Ref sig .tc := ⟨.hbm, 173, rfl⟩
abbrev main_v149 : Ref sig .tc := ⟨.hbm, 174, rfl⟩
abbrev main_v150 : Ref sig .tc := ⟨.hbm, 175, rfl⟩
abbrev main_cst_22 : Ref sig .tc := ⟨.hbm, 176, rfl⟩
abbrev main_v151 : Ref sig .tc := ⟨.hbm, 177, rfl⟩
abbrev main_v152 : Ref sig .tc := ⟨.hbm, 178, rfl⟩
abbrev main_cst_23 : Ref sig .tc := ⟨.hbm, 179, rfl⟩
abbrev main_v153 : Ref sig .tc := ⟨.hbm, 180, rfl⟩
abbrev main_v154 : Ref sig .tc := ⟨.hbm, 181, rfl⟩
abbrev main_cst_24 : Ref sig .tc := ⟨.hbm, 182, rfl⟩
abbrev main_v155 : Ref sig .tc := ⟨.hbm, 183, rfl⟩
abbrev main_v156 : Ref sig .tc := ⟨.hbm, 184, rfl⟩
abbrev main_cst_25 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩

abbrev nD : Nat := 1
abbrev τ : Topo := Topo.v7x

variable {F : FTy → Type} [FloatOps F]

class Facts₀ : Prop where
  slices_S1024x2048x32_S1024x2048x8_0_0_1 : S1024x2048x32.Slices ![0, 0, 1] S1024x2048x8
  slices_S1024x2048x32_S1024x2048x23_0_0_9 : S1024x2048x32.Slices ![0, 0, 9] S1024x2048x23
  bcast_S_S1024x2048x8 : S_.BroadcastsInDim S1024x2048x8 (![] : Fin 0 → Fin S1024x2048x8.rank)
  bcast_S_S1 : S_.BroadcastsInDim S1 (![] : Fin 0 → Fin S1.rank)
  bcast_S_S1024x2048 : S_.BroadcastsInDim S1024x2048 (![] : Fin 0 → Fin S1024x2048.rank)
  bcast_S_S1024x2048x1 : S_.BroadcastsInDim S1024x2048x1 (![] : Fin 0 → Fin S1024x2048x1.rank)
  slices_S1024x2048x8_S1024x2048x1_0_0_7 : S1024x2048x8.Slices ![0, 0, 7] S1024x2048x1
  slices_S1024x2048x8_S1024x2048x1_0_0_6 : S1024x2048x8.Slices ![0, 0, 6] S1024x2048x1
  slices_S1024x2048x8_S1024x2048x1_0_0_5 : S1024x2048x8.Slices ![0, 0, 5] S1024x2048x1
  slices_S1024x2048x8_S1024x2048x1_0_0_4 : S1024x2048x8.Slices ![0, 0, 4] S1024x2048x1
  slices_S1024x2048x8_S1024x2048x1_0_0_3 : S1024x2048x8.Slices ![0, 0, 3] S1024x2048x1
  slices_S1024x2048x8_S1024x2048x1_0_0_2 : S1024x2048x8.Slices ![0, 0, 2] S1024x2048x1
  slices_S1024x2048x8_S1024x2048x1_0_0_1 : S1024x2048x8.Slices ![0, 0, 1] S1024x2048x1
  slices_S1024x2048x8_S1024x2048x1_0_0_0 : S1024x2048x8.Slices ![0, 0, 0] S1024x2048x1
  slices_S1024x2048x23_S1024x2048x1_0_0_0 : S1024x2048x23.Slices ![0, 0, 0] S1024x2048x1
  slices_S1024x2048x23_S1024x2048x1_0_0_1 : S1024x2048x23.Slices ![0, 0, 1] S1024x2048x1
  slices_S1024x2048x23_S1024x2048x1_0_0_2 : S1024x2048x23.Slices ![0, 0, 2] S1024x2048x1
  slices_S1024x2048x23_S1024x2048x1_0_0_3 : S1024x2048x23.Slices ![0, 0, 3] S1024x2048x1
  concatenates_S1024x2048x1_S1024x2048x1_S1024x2048x1_S1024x2048x1_S1024x2048x1_S1024x2048x5_d2 : Shape.Concatenates [S1024x2048x1, S1024x2048x1, S1024x2048x1, S1024x2048x1, S1024x2048x1] S1024x2048x5 2
  scatter_S1024x2048x8_S1_S1024x2048_01_2_2_0_wf : ScatterDims.WF S1024x2048x8 S1 S1024x2048 [0, 1] [2] [2] 0

variable [Facts₀]

def scatter_S1024x2048x8_S1_S1024x2048_01_2_2_0 : ScatterDims S1024x2048x8 S1 S1024x2048 where
  updateWindowDims := [0, 1]
  insertedWindowDims := [2]
  scatterDimsToOperandDims := [2]
  indexVectorDim := 0
  wf := scatter_S1024x2048x8_S1_S1024x2048_01_2_2_0_wf

class Facts : Prop extends Facts₀ where

variable [Facts]
-- ==== Proof.LibFiber.lean ====
/-
  Vectors of rank three read along their LAST axis.

  A rank-three vector `x` over `[A, B, n]` is, at each position `(p, q)` of its two leading axes, a FIBER
  `fun j => x (ix3 p q j)` of `n` entries. The operations below act fiber by fiber, the same at every `(p, q)`:
  a unit-stride slice whose offsets on the two leading axes are zero shifts the fiber's coordinate by its last
  offset; a concatenation of five pieces of extent one along the last axis has piece `k` as entry `k` of its fiber.
  Each lemma reads the operation at `ix3 p q ·` and names the operand entry, so that a chain of such operations is
  pushed down to entries of the argument by rewriting, with no arithmetic left over.
-/
import Idealize.ShloMosaic.PureOps.Ideal
import Idealize.ShloMosaic.Lib.ValueIdx
import Idealize.ShloMosaic.Lib.Pipeline.Value

noncomputable section

namespace Idealize.ShloMosaic.Fiber

open Idealize.ShloMosaic Idealize.ShloMosaic.ValueIdx

variable {α : Type} {A B n m : Nat}

/-- The bound a last-axis slice gives the shifted coordinate: offset plus a coordinate of the slice stays inside
    the operand's last axis. -/
theorem slice_last_lt {o : Nat} (h : (⟨3, ![A, B, n]⟩ : Shape).Slices ![0, 0, o] ⟨3, ![A, B, m]⟩) {j : Nat} (hj : j < m) :
    o + j < n := by
  have := h.2 (2 : Fin 3)
  have e1 : (![0, 0, o] : Fin 3 → Nat) (2 : Fin 3) = o := rfl
  have e2 : (⟨3, ![A, B, n]⟩ : Shape).size (2 : Fin 3) = n := rfl
  have e3 : (⟨3, ![A, B, m]⟩ : Shape).size (((2 : Fin 3) : Fin 3).cast h.1.symm) = m := rfl
  rw [e1, e2, e3] at this
  omega

/-- A slice along the last axis only, read at `(p, q, j)`: the operand at `(p, q, o + j)`. -/
theorem slice_last_apply (o : Nat) (x : (⟨3, ![A, B, n]⟩ : Shape).Idx → α)
    (h : (⟨3, ![A, B, n]⟩ : Shape).Slices ![0, 0, o] ⟨3, ![A, B, m]⟩) (p : Fin A) (q : Fin B) (j : Nat) (hj : j < m) :
    extractStridedSlice ⟨3, ![A, B, m]⟩ ![0, 0, o] x h (ix3 p q ⟨j, hj⟩) = x (ix3 p q ⟨o + j, slice_last_lt h hj⟩) := by
  refine extractStridedSlice_apply _ x h _ _ fun a => ?_
  match a with
  | ⟨0, _⟩ => show p.val = 0 + p.val; omega
  | ⟨1, _⟩ => show q.val = 0 + q.val; omega
  | ⟨2, _⟩ => rfl

/-- A slice of extent one along the last axis, read anywhere on its unit axis: the operand at the offset. -/
theorem slice_last_unit_apply (o : Nat) (x : (⟨3, ![A, B, n]⟩ : Shape).Idx → α)
    (h : (⟨3, ![A, B, n]⟩ : Shape).Slices ![0, 0, o] ⟨3, ![A, B, 1]⟩) (p : Fin A) (q : Fin B) (z : Fin 1) :
    extractStridedSlice ⟨3, ![A, B, 1]⟩ ![0, 0, o] x h (ix3 p q z)
      = x (ix3 p q ⟨o, by have := slice_last_lt h (show 0 < 1 by decide); omega⟩) := by
  refine extractStridedSlice_apply _ x h _ _ fun a => ?_
  match a with
  | ⟨0, _⟩ => show p.val = 0 + p.val; omega
  | ⟨1, _⟩ => show q.val = 0 + q.val; omega
  | ⟨2, _⟩ => show o = o + z.val; omega

/-- Entry `k` of the fiber of five unit pieces laid side by side along the last axis is piece `k`'s one entry. -/
def pick5 (a b c d e : α) : Fin 5 → α
  | ⟨0, _⟩ => a | ⟨1, _⟩ => b | ⟨2, _⟩ => c | ⟨3, _⟩ => d | ⟨4, _⟩ => e

/-- Five pieces of extent one concatenated along the last axis, read at `(p, q, k)`: piece `k` at `(p, q, 0)`. -/
theorem concat5_last_apply (a b c d e : (⟨3, ![A, B, 1]⟩ : Shape).Idx → α)
    (h : Shape.Concatenates (([⟨⟨3, ![A, B, 1]⟩, a⟩, ⟨⟨3, ![A, B, 1]⟩, b⟩, ⟨⟨3, ![A, B, 1]⟩, c⟩, ⟨⟨3, ![A, B, 1]⟩, d⟩,
      ⟨⟨3, ![A, B, 1]⟩, e⟩] : List ((s : Shape) × (s.Idx → α))).map (·.1)) ⟨3, ![A, B, 5]⟩ (2 : Fin 3))
    (p : Fin A) (q : Fin B) (k : Fin 5) :
    concatenate ⟨3, ![A, B, 5]⟩ (2 : Fin 3) [⟨⟨3, ![A, B, 1]⟩, a⟩, ⟨⟨3, ![A, B, 1]⟩, b⟩, ⟨⟨3, ![A, B, 1]⟩, c⟩,
        ⟨⟨3, ![A, B, 1]⟩, d⟩, ⟨⟨3, ![A, B, 1]⟩, e⟩] h (ix3 p q k)
      = pick5 (a (ix3 p q 0)) (b (ix3 p q 0)) (c (ix3 p q 0)) (d (ix3 p q 0)) (e (ix3 p q 0)) k := by
  have hi : ∀ b' : Fin (⟨3, ![A, B, 1]⟩ : Shape).rank, b'.cast (rfl : (3 : Nat) = 3) ≠ ((2 : Fin 3) : Fin 3) →
      ((ix3 p q (0 : Fin 1) : (⟨3, ![A, B, 1]⟩ : Shape).Idx) b').val = ((ix3 p q k : (⟨3, ![A, B, 5]⟩ : Shape).Idx) (b'.cast rfl)).val := by
    intro b' hb
    match b' with
    | ⟨0, _⟩ => rfl
    | ⟨1, _⟩ => rfl
    | ⟨2, _⟩ => exact absurd rfl hb
  match k with
  | ⟨0, _⟩ => exact concatenate_apply_piece _ _ h _ 0 (by show (0 : Nat) < 5; omega) _ a rfl rfl 0 rfl (ix3 p q 0) hi rfl
  | ⟨1, _⟩ => exact concatenate_apply_piece _ _ h _ 1 (by show (1 : Nat) < 5; omega) _ b rfl rfl 1 rfl (ix3 p q 0) hi rfl
  | ⟨2, _⟩ => exact concatenate_apply_piece _ _ h _ 2 (by show (2 : Nat) < 5; omega) _ c rfl rfl 2 rfl (ix3 p q 0) hi rfl
  | ⟨3, _⟩ => exact concatenate_apply_piece _ _ h _ 3 (by show (3 : Nat) < 5; omega) _ d rfl rfl 3 rfl (ix3 p q 0) hi rfl
  | ⟨4, _⟩ => exact concatenate_apply_piece _ _ h _ 4 (by show (4 : Nat) < 5; omega) _ e rfl rfl 4 rfl (ix3 p q 0) hi rfl

end Idealize.ShloMosaic.Fiber

end
-- ==== Proof.Spec.lean ====
/-
  The specification: what one position of the array computes.

  The input's last axis holds the 32 bits of a float, most significant first, each bit a number: `x 0` the sign,
  `x 1 … x 8` the exponent `e 0 … e 7`, `x 9 … x 31` the mantissa. Logic gates are polynomials that are the
  Boolean gates on the numbers 0 and 1: `not a = 1 - a`, `and a b = a * b`, `or a b = a + b - a * b`,
  `xor a b = a + b - 2 * a * b`. A ripple adder over these gates, least significant bit first, adds the exponent to
  the eight-bit pattern `10000000` with carry-in one — the two's-complement subtraction `e - 127` —; the five
  indicator products `is k` say the difference is `k`, for `k` from 0 to 4; and output bit `b` is the disjunction of
  `is b` with `is s ∧ m (s - 1 - b)` for the larger `s`: the top bits of the integer `2 ^ shift * 1.mantissa`.
  The five results come out most significant first.

  Both programs evaluate exactly this expression, operation for operation, on every position, so the circuit is
  stated once here over the extended reals with the three constants the programs spell as float words left as
  parameters, and no law of arithmetic is ever needed: the certificate shows each program's entry IS this term.
-/
import Idealize.ShloMosaic.PureOps.Ideal
import Idealize.ShloMosaic.Lib.ValueIdx
import proofs.«178595_j76312978916072_1_alg».proof.Proof.LibFiber

noncomputable section

namespace Cert.Spec

open Idealize.ShloMosaic Idealize.ShloMosaic.ValueIdx

/-- `1 - a`. -/
def gnot (one a : Ideal .f32) : Ideal .f32 := one - a
/-- `a * b`. -/
def gand (a b : Ideal .f32) : Ideal .f32 := a * b
/-- `a + b - a * b`. -/
def gor (a b : Ideal .f32) : Ideal .f32 := a + b - a * b
/-- `a + b - 2 * a * b`, the product taken as `(2 * a) * b`. -/
def gxor (two a b : Ideal .f32) : Ideal .f32 := a + b - two * a * b

/-- One full adder's sum bit: `xor (xor a b) c`. -/
def faSum (two a b c : Ideal .f32) : Ideal .f32 := gxor two (gxor two a b) c
/-- One full adder's carry: `or (and a b) (and (xor a b) c)`. -/
def faCarry (two a b c : Ideal .f32) : Ideal .f32 := gor (gand a b) (gand (gxor two a b) c)

/-- The five output bits of one position, from its 32 input bits, over the constants `zero`, `one`, `two`. -/
def circ (zero one two : Ideal .f32) (x : Fin 32 → Ideal .f32) : Fin 5 → Ideal .f32 :=
  -- the exponent's bits, most significant first, and the top four mantissa bits
  let e0 := x ⟨1 + 0, by omega⟩; let e1 := x ⟨1 + 1, by omega⟩; let e2 := x ⟨1 + 2, by omega⟩; let e3 := x ⟨1 + 3, by omega⟩
  let e4 := x ⟨1 + 4, by omega⟩; let e5 := x ⟨1 + 5, by omega⟩; let e6 := x ⟨1 + 6, by omega⟩; let e7 := x ⟨1 + 7, by omega⟩
  let m0 := x ⟨9 + 0, by omega⟩; let m1 := x ⟨9 + 1, by omega⟩; let m2 := x ⟨9 + 2, by omega⟩; let m3 := x ⟨9 + 3, by omega⟩
  -- the ripple adder, from bit 7 up to bit 0; the other addend is `one` at bit 0 and `zero` below it
  let s7 := faSum two e7 zero one;  let c7 := faCarry two e7 zero one
  let s6 := faSum two e6 zero c7;   let c6 := faCarry two e6 zero c7
  let s5 := faSum two e5 zero c6;   let c5 := faCarry two e5 zero c6
  let s4 := faSum two e4 zero c5;   let c4 := faCarry two e4 zero c5
  let s3 := faSum two e3 zero c4;   let c3 := faCarry two e3 zero c4
  let s2 := faSum two e2 zero c3;   let c2 := faCarry two e2 zero c3
  let s1 := faSum two e1 zero c2;   let c1 := faCarry two e1 zero c2
  let s0 := faSum two e0 one c1
  let n0 := gnot one s0; let n1 := gnot one s1; let n2 := gnot one s2; let n3 := gnot one s3
  let n4 := gnot one s4; let n5 := gnot one s5; let n6 := gnot one s6; let n7 := gnot one s7
  -- the five high bits of the difference are zero
  let hz := gand (gand (gand (gand n0 n1) n2) n3) n4
  -- the difference is 0, 1, 2, 3, 4
  let is0 := gand hz (gand n5 (gand n6 n7))
  let is1 := gand hz (gand n5 (gand n6 s7))
  let is2 := gand hz (gand n5 (gand s6 n7))
  let is3 := gand hz (gand n5 (gand s6 s7))
  let is4 := gand hz (gand s5 (gand n6 n7))
  let b0 := gor (gor (gor (gor is0 (gand is1 m0)) (gand is2 m1)) (gand is3 m2)) (gand is4 m3)
  let b1 := gor (gor (gor is1 (gand is2 m0)) (gand is3 m1)) (gand is4 m2)
  let b2 := gor (gor is2 (gand is3 m0)) (gand is4 m1)
  let b3 := gor is3 (gand is4 m0)
  let b4 := is4
  Fiber.pick5 b4 b3 b2 b1 b0

/-- The float words the two programs spell their constants with: 0, 1 and 2. -/
abbrev zeroW : Ideal .f32 := Ideal.ofBits .f32 0x00000000#32
abbrev oneW : Ideal .f32 := Ideal.ofBits .f32 0x3F800000#32
abbrev twoW : Ideal .f32 := Ideal.ofBits .f32 0x40000000#32

/-- THE RESULT ARRAY as one function of the argument array: at position `(b, s)` and output bit `k`, the circuit
    of the argument's 32 bits at `(b, s)`. -/
def G (x : (⟨3, ![1024, 2048, 32]⟩ : Shape).Idx → Ideal .f32) : (⟨3, ![1024, 2048, 5]⟩ : Shape).Idx → Ideal .f32 :=
  fun i => circ zeroW oneW twoW (fun j => x (ix3 (n0 := 1024) (n1 := 2048) (i 0) (i 1) j)) (i 2)

/-- `G` at an index given by its coordinates. -/
theorem G_apply (x : (⟨3, ![1024, 2048, 32]⟩ : Shape).Idx → Ideal .f32) (b : Fin 1024) (s : Fin 2048) (k : Fin 5) :
    G x (ix3 b s k) = circ zeroW oneW twoW (fun j => x (ix3 b s j)) k := rfl

end Cert.Spec

end
-- ==== Proof.KernelPoint.lean ====
/-
  One entry of what the kernel's body stores.

  The body loads its whole input block `x0` (128 × 64 positions, 32 bits each), computes with slices of extent
  one along the bit axis, constants splat over a position's one entry, and pointwise sums, differences and
  products, and stores the concatenation of five such one-entry values. Read at position `(p, q)` and output bit
  `k`, every one of those operations acts on the fiber of `x0` over `(p, q)` alone: a slice picks a bit, a splat
  is its constant, an arithmetic operation acts entry by entry, the concatenation picks its `k`-th piece. Pushed down
  to the bits `x0 (p, q, ·)`, what is stored is, term for term, the circuit of the specification.
-/
import proofs.«178595_j76312978916072_1_alg».proof.Proof.Gen.KernelIdeal.Frame
import proofs.«178595_j76312978916072_1_alg».proof.Proof.Spec
import proofs.«178595_j76312978916072_1_alg».proof.Proof.LibFiber
import Idealize.ShloMosaic.Lib.Pipeline.Value
import Idealize.ShloMosaic.Lib.ValueIdx

noncomputable section

namespace Cert.KernelIdeal.Point

open Idealize.ShloMosaic Idealize.ShloMosaic.ValueIdx Idealize.ShloMosaic.Fiber Cert.KernelIdeal Cert.KernelIdeal.Gen Cert.Spec

/-- The whole block's rectangle starts at the origin. -/
theorem origin3 : (![0, 0, 0] : Fin 3 → Nat) = fun _ => 0 := funext fun a => by fin_cases a <;> rfl

set_option maxHeartbeats 4000000 in
/-- The stored block at position `(p, q)`, bit `k`: the circuit of the input block's 32 bits at `(p, q)`. Every
    payload of the body is opened and read at the index; the two sides are then the same term. -/
theorem out_apply (x0 : Vec Ideal S128x64x32 .f32) (p : Fin 128) (q : Fin 64) (k : Fin 5) :
    out0_1 (F := Ideal) x0 (ix3 p q k)
      = circ (Ideal.ofBits .f32 0x00000000#32) (Ideal.ofBits .f32 0x3F800000#32) (Ideal.ofBits .f32 0x40000000#32)
          (fun j => x0 (ix3 p q j)) k := by
  unfold out0_1
  rw [View.canon_unit_zero origin3]
  simp only [View.ld_unit_zero (S := S128x64x32) origin3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51,
    concat5_last_apply, slice_last_apply, addf_apply, subf_apply, mulf_apply, broadcast_apply,
    Ideal.ofBits_def, Fin.val_zero, Nat.add_zero, Nat.reduceAdd, circ, faSum, faCarry, gxor, gor, gand, gnot]

end Cert.KernelIdeal.Point

end
-- ==== Proof.KernelWhole.lean ====
/-
  From blocks to the array: what the kernel's result array holds after the run.

  The grid has 8 × 32 points; point `(i, j)` stages block `(i, j, 0)` of the argument (128 × 64 positions, all
  32 bits) and writes back block `(i, j, 0)` of the result (the same positions, all 5 output bits). Position
  `(p, q)` of a block is position `(128 i + p, 64 j + q)` of the array, on both arrays, so what point `(i, j)`
  writes back — the circuit of the staged block's bits, position by position — is block `(i, j, 0)` of ONE
  whole-array function `G` of the argument: the circuit at every position. The 256 blocks tile the result array,
  so after the run the array IS `G` of the argument.
-/
import proofs.«178595_j76312978916072_1_alg».proof.Proof.KernelPoint
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The printed index maps, decided over the 256 grid points: the input's block moves with the output's on the two
    position axes, both sit at block 0 of their bit axes, and the block indices stay inside 8 × 32. -/
theorem idx_facts : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ win0_1.index t (0 : Fin 3) ≤ 7 ∧ win0_1.index t (1 : Fin 3) ≤ 31 :=
  (by decide +kernel : ∀ t : Fin grid0.N, _)

/-- Every block of the 8 × 32 × 1 box of result blocks is some point's. -/
theorem idx_onto : ∀ (q0 : Fin 8) (q1 : Fin 32), ∃ t : Fin cfg0.N, win0_1.index t = ![q0.val, q1.val, 0] :=
  (by decide +kernel : ∀ (q0 : Fin 8) (q1 : Fin 32), ∃ t : Fin grid0.N, win0_1.index t = ![q0.val, q1.val, 0])

/-- One entry of one block: if the staged block `x0` is block `(i0, i1)` of the array `X`, position by position and
    bit by bit, then entry `y` of what the body stores is `G X` at the array index `Y` under `y`. -/
theorem point_eq (x0 : Vec Ideal S128x64x32 .f32) (X : S1024x2048x32.Idx → Ideal .f32) (i0 i1 : Nat) (h0 : i0 ≤ 7) (h1 : i1 ≤ 31)
    (hx : ∀ (p : Fin 128) (q : Fin 64) (j : Fin 32),
      x0 (ix3 p q j) = X (ix3 (⟨i0 * 128 + p.val, by have := p.isLt; omega⟩ : Fin 1024) (⟨i1 * 64 + q.val, by have := q.isLt; omega⟩ : Fin 2048) j))
    (y : S128x64x5.Idx) (Y : S1024x2048x5.Idx)
    (hY0 : (Y 0).val = i0 * 128 + (y 0).val) (hY1 : (Y 1).val = i1 * 64 + (y 1).val) (hY2 : (Y 2).val = (y 2).val) :
    out0_1 (F := Ideal) x0 y = G X Y := by
  obtain ⟨p, q, k, rfl⟩ : ∃ (p : Fin 128) (q : Fin 64) (k : Fin 5), y = ix3 p q k := ⟨y 0, y 1, y 2, eq_ix3 y⟩
  have hY : Y = ix3 (⟨i0 * 128 + p.val, by have := p.isLt; omega⟩ : Fin 1024) (⟨i1 * 64 + q.val, by have := q.isLt; omega⟩ : Fin 2048) k := by
    funext a
    match a with
    | ⟨0, _⟩ => exact Fin.ext hY0
    | ⟨1, _⟩ => exact Fin.ext hY1
    | ⟨2, _⟩ => exact Fin.ext hY2
  rw [hY, Point.out_apply, G_apply]
  exact congrArg (fun f => circ zeroW oneW twoW f k) (funext fun j => hx p q j)

/-- WHAT POINT `t` WRITES BACK is block `t` of `G` of the argument array as the region finds it. -/
theorem flushed_eq (c : Dev nD) (t : Fin cfg0.N) :
    (dats m 0 c).flushed 1 t = ((cfg0.win 1).blk t).view.read (Elt Ideal) (G (V m c main_arg0)) := by
  show (cfg0.win 1).cut (grid0.coords t) ((dats m 0 c).after 1 t) = _
  rw [after0_1]
  obtain ⟨e0, e1, e2, e3, e4, e5⟩ := idx_facts t
  funext y
  show out0_1 (iblk m c 0 t) ((cfg0.win 1).xinj (grid0.coords t) y) = G (V m c main_arg0) (((cfg0.win 1).blk t).view.emb y)
  -- the entry's index inside the stored block, kept as a variable: only its coordinates matter
  obtain ⟨y', hy, c0, c1, c2⟩ : ∃ y' : S128x64x5.Idx, (cfg0.win 1).xinj (grid0.coords t) y = y'
      ∧ (y' 0).val = (y 0).val ∧ (y' 1).val = (y 1).val ∧ (y' 2).val = (y 2).val := ⟨_, rfl, rfl, rfl, rfl⟩
  rw [hy]
  refine point_eq (iblk m c 0 t) (V m c main_arg0) (win0_1.index t (0 : Fin 3)) (win0_1.index t (1 : Fin 3)) e4 e5 ?_ y'
    (((cfg0.win 1).blk t).view.emb y) ?_ ?_ ?_
  · intro p q j
    show V m c main_arg0 (((cfg0.win 0).blk t).view.emb (ix3 p q j)) = _
    refine congrArg (V m c main_arg0) (funext fun a => Fin.ext ?_)
    match a with
    | ⟨0, _⟩ => show win0_0.index t (0 : Fin 3) * 128 + 1 * p.val = win0_1.index t (0 : Fin 3) * 128 + p.val; omega
    | ⟨1, _⟩ => show win0_0.index t (1 : Fin 3) * 64 + 1 * q.val = win0_1.index t (1 : Fin 3) * 64 + q.val; omega
    | ⟨2, _⟩ => show win0_0.index t (2 : Fin 3) * 32 + 1 * j.val = j.val; omega
  · show win0_1.index t (0 : Fin 3) * 128 + 1 * (y 0).val = win0_1.index t (0 : Fin 3) * 128 + (y' 0).val; omega
  · show win0_1.index t (1 : Fin 3) * 64 + 1 * (y 1).val = win0_1.index t (1 : Fin 3) * 64 + (y' 1).val; omega
  · show win0_1.index t (2 : Fin 3) * 5 + 1 * (y 2).val = (y' 2).val; omega

/-- An index of the result array is in point `t`'s block iff each coordinate is in the block's range on its axis. -/
theorem mem_blk (t : Fin cfg0.N) (i : S1024x2048x5.Idx) :
    i ∈ ((cfg0.win 1).blk t).view.set ↔ ∀ a : Fin 3, win0_1.index t a * S128x64x5.size a ≤ (i a).val
      ∧ (i a).val < win0_1.index t a * S128x64x5.size a + S128x64x5.size a := by
  show i ∈ ((View.whole main_v0).slice (win0_1.rect t)).set ↔ _
  rw [View.set_slice_whole, Rect.mem_set_unit]
  exact Iff.rfl

/-- The blocks tile the result array: position `(b, s)` lies in the block of point `(b / 128, s / 64)`. -/
theorem cover (i : S1024x2048x5.Idx) :
    ∃ t : Fin cfg0.N, (cfg0.win 1).flush t = true ∧ i ∈ ((cfg0.win 1).blk t).view.set := by
  have hi0 : (i 0).val < 1024 := (i 0).isLt
  have hi1 : (i 1).val < 2048 := (i 1).isLt
  have hi2 : (i 2).val < 5 := (i 2).isLt
  obtain ⟨t, ht⟩ := idx_onto ⟨(i 0).val / 128, by omega⟩ ⟨(i 1).val / 64, by omega⟩
  have q0 : win0_1.index t (0 : Fin 3) = (i 0).val / 128 := congrFun ht 0
  have q1 : win0_1.index t (1 : Fin 3) = (i 1).val / 64 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 64 ≤ (i 1).val ∧ (i 1).val < win0_1.index t (1 : Fin 3) * 64 + 64; omega
  | ⟨2, _⟩ => show win0_1.index t (2 : Fin 3) * 5 ≤ (i 2).val ∧ (i 2).val < win0_1.index t (2 : Fin 3) * 5 + 5; omega

/-- THE RESULT ARRAY after the run: `G` of the argument array. -/
theorem final (c : Dev nD) : (dats m 0 c).arrAt 1 cfg0.N = G (m ((c : Thread nD τ).loc main_arg0)) :=
  ((dats m 0 c).arrAt_eq_of_cover 1 (G (V m c main_arg0)) (fun t _ => flushed_eq m c t) cover).trans
    (congrArg G (V_main_arg0 m c))

/-- The kernel's run, read: every weakly fair execution terminates with the result array at `G` of the argument array,
    the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Whole

end
-- ==== Proof.RefOps.lean ====
/- The reference program's host operations as list literals, one per printed window of @main, in order, each
   operation copied from its line of the printed program; and per window the tuple saying that every operation
   reads and writes TensorCore buffers only. -/
import proofs.«178595_j76312978916072_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 to 60 of @main. -/
abbrev ops0 : List (HloOp τ sig (Elt F)) :=
  [ StableHlo.unary main_arg0 main_v0 ((extractStridedSlice S1024x2048x8 ![0, 0, 1] · slices_S1024x2048x32_S1024x2048x8_0_0_1) : (⟨S1024x2048x32, .f32⟩ : BufTy).Contents (Elt F) → (⟨S1024x2048x8, .f32⟩ : BufTy).Contents (Elt F)),
    StableHlo.unary main_arg0 main_v1 ((extractStridedSlice S1024x2048x23 ![0, 0, 9] · slices_S1024x2048x32_S1024x2048x23_0_0_9) : (⟨S1024x2048x32, .f32⟩ : BufTy).Contents (Elt F) → (⟨S1024x2048x23, .f32⟩ : BufTy).Contents (Elt F)),
    StableHlo.nullary main_cst (constant S_ .f32 0x00000000#32),
    StableHlo.unary main_cst main_v2 (broadcastInDim S1024x2048x8 ![] bcast_S_S1024x2048x8 : (⟨S_, .f32⟩ : BufTy).Contents (Elt F) → (⟨S1024x2048x8, .f32⟩ : BufTy).Contents (Elt F)),
    StableHlo.nullary main_c (constantI S_ 32 0#32),
    StableHlo.unary main_c main_v3 (broadcastInDim S1 ![] bcast_S_S1 : (⟨S_, .i32⟩ : BufTy).Contents (Elt F) → (⟨S1, .i32⟩ : BufTy).Contents (Elt F)),
    StableHlo.nullary main_cst_0 (constant S_ .f32 0x3F800000#32),
    StableHlo.unary main_cst_0 main_v4 (broadcastInDim S1024x2048 ![] bcast_S_S1024x2048 : (⟨S_, .f32⟩ : BufTy).Contents (Elt F) → (⟨S1024x2048, .f32⟩ : BufTy).Contents (Elt F)),
    StableHlo.ternary main_v2 main_v3 main_v4 main_v5 ((fun x i u => Host.scatter scatter_S1024x2048x8_S1_S1024x2048_01_2_2_0 (fun _ b => b) x i u) : (⟨S1024x2048x8, .f32⟩ : BufTy).Contents (Elt F) → (⟨S1, .i32⟩ : BufTy).Contents (Elt F) → (⟨S1024x2048, .f32⟩ : BufTy).Contents (Elt F) → (⟨S1024x2048x8, .f32⟩ : BufTy).Contents (Elt F)),
    StableHlo.nullary main_cst_1 (constant S_ .f32 0x3F800000#32),
    StableHlo.unary main_cst_1 main_v6 (broadcastInDim S1024x2048x1 ![] bcast_S_S1024x2048x1 : (⟨S_, .f32⟩ : BufTy).Contents (Elt F) → (⟨S1024x2048x1, .f32⟩ : BufTy).Contents (Elt F)),
    StableHlo.unary main_v0 main_v7 ((extractStridedSlice S1024x2048x1 ![0, 0, 7] · slices_S1024x2048x8_S1024x2048x1_0_0_7) : (⟨S1024x2048x8, .f32⟩ : BufTy).Contents (Elt F) → (⟨S1024x2048x1, .f32⟩ : BufTy).Contents (Elt F)),
    StableHlo.unary main_v5 main_v8 ((extractStridedSlice S1024x2048x1 ![0, 0, 7] · slices_S1024x2048x8_S1024x2048x1_0_0_7) : (⟨S1024x2048x8, .f32⟩ : BufTy).Contents (Elt F) → (⟨S1024x2048x1, .f32⟩ : BufTy).Contents (Elt F)),
    StableHlo.binary main_v7 main_v8 main_v9 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_2 (constant S_ .f32 0x40000000#32),
    StableHlo.unary main_cst_2 main_v10 (broadcastInDim S1024x2048x1 ![] bcast_S_S1024x2048x1 : (⟨S_, .f32⟩ : BufTy).Contents (Elt F) → (⟨S1024x2048x1, .f32⟩ : BufTy).Contents (Elt F)),
    StableHlo.binary main_v10 main_v7 main_v11 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v11 main_v8 main_v12 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v9 main_v12 main_v13 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v13 main_v6 main_v14 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_3 (constant S_ .f32 0x40000000#32),
    StableHlo.unary main_cst_3 main_v15 (broadcastInDim S1024x2048x1 ![] bcast_S_S1024x2048x1 : (⟨S_, .f32⟩ : BufTy).Contents (Elt F) → (⟨S1024x2048x1, .f32⟩ : BufTy).Contents (Elt F)),
    StableHlo.binary main_v15 main_v13 main_v16 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v16 main_v6 main_v17 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v14 main_v17 main_v18 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v7 main_v8 main_v19 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v13 main_v6 main_v20 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v19 main_v20 main_v21 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v19 main_v20 main_v22 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v21 main_v22 main_v23 (subf : (⟨S1024x2048x1, .f32⟩ : BufTy).Contents (Elt F) → (⟨S1024x2048x1, .f32⟩ : BufTy).Contents (Elt F) → (⟨S1024x2048x1, .f32⟩ : BufTy).Contents (Elt F)),
    StableHlo.unary main_v0 main_v24 ((extractStridedSlice S1024x2048x1 ![0, 0, 6] · slices_S1024x2048x8_S1024x2048x1_0_0_6) : (⟨S1024x2048x8, .f32⟩ : BufTy).Contents (Elt F) → (⟨S1024x2048x1, .f32⟩ : BufTy).Contents (Elt F)),
    StableHlo.unary main_v5 main_v25 ((extractStridedSlice S1024x2048x1 ![0, 0, 6] · slices_S1024x2048x8_S1024x2048x1_0_0_6) : (⟨S1024x2048x8, .f32⟩ : BufTy).Contents (Elt F) → (⟨S1024x2048x1, .f32⟩ : BufTy).Contents (Elt F)),
    StableHlo.binary main_v24 main_v25 main_v26 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_4 (constant S_ .f32 0x40000000#32),
    StableHlo.unary main_cst_4 main_v27 (broadcastInDim S1024x2048x1 ![] bcast_S_S1024x2048x1 : (⟨S_, .f32⟩ : BufTy).Contents (Elt F) → (⟨S1024x2048x1, .f32⟩ : BufTy).Contents (Elt F)),
    StableHlo.binary main_v27 main_v24 main_v28 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v28 main_v25 main_v29 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v26 main_v29 main_v30 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v30 main_v23 main_v31 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_5 (constant S_ .f32 0x40000000#32),
    StableHlo.unary main_cst_5 main_v32 (broadcastInDim S1024x2048x1 ![] bcast_S_S1024x2048x1 : (⟨S_, .f32⟩ : BufTy).Contents (Elt F) → (⟨S1024x2048x1, .f32⟩ : BufTy).Contents (Elt F)),
    StableHlo.binary main_v32 main_v30 main_v33 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v33 main_v23 main_v34 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v31 main_v34 main_v35 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v24 main_v25 main_v36 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v30 main_v23 main_v37 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v36 main_v37 main_v38 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v36 main_v37 main_v39 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v38 main_v39 main_v40 (subf : (⟨S1024x2048x1, .f32⟩ : BufTy).Contents (Elt F) → (⟨S1024x2048x1, .f32⟩ : BufTy).Contents (Elt F) → (⟨S1024x2048x1, .f32⟩ : BufTy).Contents (Elt F)),
    StableHlo.unary main_v0 main_v41 ((extractStridedSlice S1024x2048x1 ![0, 0, 5] · slices_S1024x2048x8_S1024x2048x1_0_0_5) : (⟨S1024x2048x8, .f32⟩ : BufTy).Contents (Elt F) → (⟨S1024x2048x1, .f32⟩ : BufTy).Contents (Elt F)),
    StableHlo.unary main_v5 main_v42 ((extractStridedSlice S1024x2048x1 ![0, 0, 5] · slices_S1024x2048x8_S1024x2048x1_0_0_5) : (⟨S1024x2048x8, .f32⟩ : BufTy).Contents (Elt F) → (⟨S1024x2048x1, .f32⟩ : BufTy).Contents (Elt F)),
    StableHlo.binary main_v41 main_v42 main_v43 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_6 (constant S_ .f32 0x40000000#32),
    StableHlo.unary main_cst_6 main_v44 (broadcastInDim S1024x2048x1 ![] bcast_S_S1024x2048x1 : (⟨S_, .f32⟩ : BufTy).Contents (Elt F) → (⟨S1024x2048x1, .f32⟩ : BufTy).Contents (Elt F)),
    StableHlo.binary main_v44 main_v41 main_v45 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v45 main_v42 main_v46 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v43 main_v46 main_v47 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v47 main_v40 main_v48 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_7 (constant S_ .f32 0x40000000#32),
    StableHlo.unary main_cst_7 main_v49 (broadcastInDim S1024x2048x1 ![] bcast_S_S1024x2048x1 : (⟨S_, .f32⟩ : BufTy).Contents (Elt F) → (⟨S1024x2048x1, .f32⟩ : BufTy).Contents (Elt F)) ]

/-- Operations 61 to 120 of @main. -/
abbrev ops1 : List (HloOp τ sig (Elt F)) :=
  [ StableHlo.binary main_v49 main_v47 main_v50 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v50 main_v40 main_v51 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v48 main_v51 main_v52 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v41 main_v42 main_v53 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v47 main_v40 main_v54 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v53 main_v54 main_v55 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v53 main_v54 main_v56 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v55 main_v56 main_v57 (subf : (⟨S1024x2048x1, .f32⟩ : BufTy).Contents (Elt F) → (⟨S1024x2048x1, .f32⟩ : BufTy).Contents (Elt F) → (⟨S1024x2048x1, .f32⟩ : BufTy).Contents (Elt F)),
    StableHlo.unary main_v0 main_v58 ((extractStridedSlice S1024x2048x1 ![0, 0, 4] · slices_S1024x2048x8_S1024x2048x1_0_0_4) : (⟨S1024x2048x8, .f32⟩ : BufTy).Contents (Elt F) → (⟨S1024x2048x1, .f32⟩ : BufTy).Contents (Elt F)),
    StableHlo.unary main_v5 main_v59 ((extractStridedSlice S1024x2048x1 ![0, 0, 4] · slices_S1024x2048x8_S1024x2048x1_0_0_4) : (⟨S1024x2048x8, .f32⟩ : BufTy).Contents (Elt F) → (⟨S1024x2048x1, .f32⟩ : BufTy).Contents (Elt F)),
    StableHlo.binary main_v58 main_v59 main_v60 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_8 (constant S_ .f32 0x40000000#32),
    StableHlo.unary main_cst_8 main_v61 (broadcastInDim S1024x2048x1 ![] bcast_S_S1024x2048x1 : (⟨S_, .f32⟩ : BufTy).Contents (Elt F) → (⟨S1024x2048x1, .f32⟩ : BufTy).Contents (Elt F)),
    StableHlo.binary main_v61 main_v58 main_v62 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v62 main_v59 main_v63 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v60 main_v63 main_v64 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v64 main_v57 main_v65 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_9 (constant S_ .f32 0x40000000#32),
    StableHlo.unary main_cst_9 main_v66 (broadcastInDim S1024x2048x1 ![] bcast_S_S1024x2048x1 : (⟨S_, .f32⟩ : BufTy).Contents (Elt F) → (⟨S1024x2048x1, .f32⟩ : BufTy).Contents (Elt F)),
    StableHlo.binary main_v66 main_v64 main_v67 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v67 main_v57 main_v68 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v65 main_v68 main_v69 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v58 main_v59 main_v70 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v64 main_v57 main_v71 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v70 main_v71 main_v72 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v70 main_v71 main_v73 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v72 main_v73 main_v74 (subf : (⟨S1024x2048x1, .f32⟩ : BufTy).Contents (Elt F) → (⟨S1024x2048x1, .f32⟩ : BufTy).Contents (Elt F) → (⟨S1024x2048x1, .f32⟩ : BufTy).Contents (Elt F)),
    StableHlo.unary main_v0 main_v75 ((extractStridedSlice S1024x2048x1 ![0, 0, 3] · slices_S1024x2048x8_S1024x2048x1_0_0_3) : (⟨S1024x2048x8, .f32⟩ : BufTy).Contents (Elt F) → (⟨S1024x2048x1, .f32⟩ : BufTy).Contents (Elt F)),
    StableHlo.unary main_v5 main_v76 ((extractStridedSlice S1024x2048x1 ![0, 0, 3] · slices_S1024x2048x8_S1024x2048x1_0_0_3) : (⟨S1024x2048x8, .f32⟩ : BufTy).Contents (Elt F) → (⟨S1024x2048x1, .f32⟩ : BufTy).Contents (Elt F)),
    StableHlo.binary main_v75 main_v76 main_v77 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_10 (constant S_ .f32 0x40000000#32),
    StableHlo.unary main_cst_10 main_v78 (broadcastInDim S1024x2048x1 ![] bcast_S_S1024x2048x1 : (⟨S_, .f32⟩ : BufTy).Contents (Elt F) → (⟨S1024x2048x1, .f32⟩ : BufTy).Contents (Elt F)),
    StableHlo.binary main_v78 main_v75 main_v79 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v79 main_v76 main_v80 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v77 main_v80 main_v81 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v81 main_v74 main_v82 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_11 (constant S_ .f32 0x40000000#32),
    StableHlo.unary main_cst_11 main_v83 (broadcastInDim S1024x2048x1 ![] bcast_S_S1024x2048x1 : (⟨S_, .f32⟩ : BufTy).Contents (Elt F) → (⟨S1024x2048x1, .f32⟩ : BufTy).Contents (Elt F)),
    StableHlo.binary main_v83 main_v81 main_v84 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v84 main_v74 main_v85 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v82 main_v85 main_v86 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v75 main_v76 main_v87 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v81 main_v74 main_v88 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v87 main_v88 main_v89 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v87 main_v88 main_v90 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v89 main_v90 main_v91 (subf : (⟨S1024x2048x1, .f32⟩ : BufTy).Contents (Elt F) → (⟨S1024x2048x1, .f32⟩ : BufTy).Contents (Elt F) → (⟨S1024x2048x1, .f32⟩ : BufTy).Contents (Elt F)),
    StableHlo.unary main_v0 main_v92 ((extractStridedSlice S1024x2048x1 ![0, 0, 2] · slices_S1024x2048x8_S1024x2048x1_0_0_2) : (⟨S1024x2048x8, .f32⟩ : BufTy).Contents (Elt F) → (⟨S1024x2048x1, .f32⟩ : BufTy).Contents (Elt F)),
    StableHlo.unary main_v5 main_v93 ((extractStridedSlice S1024x2048x1 ![0, 0, 2] · slices_S1024x2048x8_S1024x2048x1_0_0_2) : (⟨S1024x2048x8, .f32⟩ : BufTy).Contents (Elt F) → (⟨S1024x2048x1, .f32⟩ : BufTy).Contents (Elt F)),
    StableHlo.binary main_v92 main_v93 main_v94 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_12 (constant S_ .f32 0x40000000#32),
    StableHlo.unary main_cst_12 main_v95 (broadcastInDim S1024x2048x1 ![] bcast_S_S1024x2048x1 : (⟨S_, .f32⟩ : BufTy).Contents (Elt F) → (⟨S1024x2048x1, .f32⟩ : BufTy).Contents (Elt F)),
    StableHlo.binary main_v95 main_v92 main_v96 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v96 main_v93 main_v97 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v94 main_v97 main_v98 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v98 main_v91 main_v99 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_13 (constant S_ .f32 0x40000000#32),
    StableHlo.unary main_cst_13 main_v100 (broadcastInDim S1024x2048x1 ![] bcast_S_S1024x2048x1 : (⟨S_, .f32⟩ : BufTy).Contents (Elt F) → (⟨S1024x2048x1, .f32⟩ : BufTy).Contents (Elt F)),
    StableHlo.binary main_v100 main_v98 main_v101 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v101 main_v91 main_v102 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v99 main_v102 main_v103 (subf : (⟨S1024x2048x1, .f32⟩ : BufTy).Contents (Elt F) → (⟨S1024x2048x1, .f32⟩ : BufTy).Contents (Elt F) → (⟨S1024x2048x1, .f32⟩ : BufTy).Contents (Elt F)) ]

/-- Operations 121 to 180 of @main. -/
abbrev ops2 : List (HloOp τ sig (Elt F)) :=
  [ StableHlo.binary main_v92 main_v93 main_v104 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v98 main_v91 main_v105 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v104 main_v105 main_v106 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v104 main_v105 main_v107 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v106 main_v107 main_v108 (subf : (⟨S1024x2048x1, .f32⟩ : BufTy).Contents (Elt F) → (⟨S1024x2048x1, .f32⟩ : BufTy).Contents (Elt F) → (⟨S1024x2048x1, .f32⟩ : BufTy).Contents (Elt F)),
    StableHlo.unary main_v0 main_v109 ((extractStridedSlice S1024x2048x1 ![0, 0, 1] · slices_S1024x2048x8_S1024x2048x1_0_0_1) : (⟨S1024x2048x8, .f32⟩ : BufTy).Contents (Elt F) → (⟨S1024x2048x1, .f32⟩ : BufTy).Contents (Elt F)),
    StableHlo.unary main_v5 main_v110 ((extractStridedSlice S1024x2048x1 ![0, 0, 1] · slices_S1024x2048x8_S1024x2048x1_0_0_1) : (⟨S1024x2048x8, .f32⟩ : BufTy).Contents (Elt F) → (⟨S1024x2048x1, .f32⟩ : BufTy).Contents (Elt F)),
    StableHlo.binary main_v109 main_v110 main_v111 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_14 (constant S_ .f32 0x40000000#32),
    StableHlo.unary main_cst_14 main_v112 (broadcastInDim S1024x2048x1 ![] bcast_S_S1024x2048x1 : (⟨S_, .f32⟩ : BufTy).Contents (Elt F) → (⟨S1024x2048x1, .f32⟩ : BufTy).Contents (Elt F)),
    StableHlo.binary main_v112 main_v109 main_v113 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v113 main_v110 main_v114 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v111 main_v114 main_v115 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v115 main_v108 main_v116 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_15 (constant S_ .f32 0x40000000#32),
    StableHlo.unary main_cst_15 main_v117 (broadcastInDim S1024x2048x1 ![] bcast_S_S1024x2048x1 : (⟨S_, .f32⟩ : BufTy).Contents (Elt F) → (⟨S1024x2048x1, .f32⟩ : BufTy).Contents (Elt F)),
    StableHlo.binary main_v117 main_v115 main_v118 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v118 main_v108 main_v119 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v116 main_v119 main_v120 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v109 main_v110 main_v121 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v115 main_v108 main_v122 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v121 main_v122 main_v123 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v121 main_v122 main_v124 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v123 main_v124 main_v125 (subf : (⟨S1024x2048x1, .f32⟩ : BufTy).Contents (Elt F) → (⟨S1024x2048x1, .f32⟩ : BufTy).Contents (Elt F) → (⟨S1024x2048x1, .f32⟩ : BufTy).Contents (Elt F)),
    StableHlo.unary main_v0 main_v126 ((extractStridedSlice S1024x2048x1 ![0, 0, 0] · slices_S1024x2048x8_S1024x2048x1_0_0_0) : (⟨S1024x2048x8, .f32⟩ : BufTy).Contents (Elt F) → (⟨S1024x2048x1, .f32⟩ : BufTy).Contents (Elt F)),
    StableHlo.unary main_v5 main_v127 ((extractStridedSlice S1024x2048x1 ![0, 0, 0] · slices_S1024x2048x8_S1024x2048x1_0_0_0) : (⟨S1024x2048x8, .f32⟩ : BufTy).Contents (Elt F) → (⟨S1024x2048x1, .f32⟩ : BufTy).Contents (Elt F)),
    StableHlo.binary main_v126 main_v127 main_v128 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_16 (constant S_ .f32 0x40000000#32),
    StableHlo.unary main_cst_16 main_v129 (broadcastInDim S1024x2048x1 ![] bcast_S_S1024x2048x1 : (⟨S_, .f32⟩ : BufTy).Contents (Elt F) → (⟨S1024x2048x1, .f32⟩ : BufTy).Contents (Elt F)),
    StableHlo.binary main_v129 main_v126 main_v130 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v130 main_v127 main_v131 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v128 main_v131 main_v132 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v132 main_v125 main_v133 (addf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_17 (constant S_ .f32 0x40000000#32),
    StableHlo.unary main_cst_17 main_v134 (broadcastInDim S1024x2048x1 ![] bcast_S_S1024x2048x1 : (⟨S_, .f32⟩ : BufTy).Contents (Elt F) → (⟨S1024x2048x1, .f32⟩ : BufTy).Contents (Elt F)),
    StableHlo.binary main_v134 main_v132 main_v135 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v135 main_v125 main_v136 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v133 main_v136 main_v137 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v126 main_v127 main_v138 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v132 main_v125 main_v139 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v138 main_v139 main_v140 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v138 main_v139 main_v141 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v140 main_v141 main_v142 (subf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_18 (constant S_ .f32 0x3F800000#32),
    StableHlo.unary main_cst_18 main_v143 (broadcastInDim S1024x2048x1 ![] bcast_S_S1024x2048x1 : (⟨S_, .f32⟩ : BufTy).Contents (Elt F) → (⟨S1024x2048x1, .f32⟩ : BufTy).Contents (Elt F)),
    StableHlo.binary main_v143 main_v137 main_v144 (subf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_19 (constant S_ .f32 0x3F800000#32),
    StableHlo.unary main_cst_19 main_v145 (broadcastInDim S1024x2048x1 ![] bcast_S_S1024x2048x1 : (⟨S_, .f32⟩ : BufTy).Contents (Elt F) → (⟨S1024x2048x1, .f32⟩ : BufTy).Contents (Elt F)),
    StableHlo.binary main_v145 main_v120 main_v146 (subf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_20 (constant S_ .f32 0x3F800000#32),
    StableHlo.unary main_cst_20 main_v147 (broadcastInDim S1024x2048x1 ![] bcast_S_S1024x2048x1 : (⟨S_, .f32⟩ : BufTy).Contents (Elt F) → (⟨S1024x2048x1, .f32⟩ : BufTy).Contents (Elt F)),
    StableHlo.binary main_v147 main_v103 main_v148 (subf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_21 (constant S_ .f32 0x3F800000#32),
    StableHlo.unary main_cst_21 main_v149 (broadcastInDim S1024x2048x1 ![] bcast_S_S1024x2048x1 : (⟨S_, .f32⟩ : BufTy).Contents (Elt F) → (⟨S1024x2048x1, .f32⟩ : BufTy).Contents (Elt F)),
    StableHlo.binary main_v149 main_v86 main_v150 (subf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_22 (constant S_ .f32 0x3F800000#32),
    StableHlo.unary main_cst_22 main_v151 (broadcastInDim S1024x2048x1 ![] bcast_S_S1024x2048x1 : (⟨S_, .f32⟩ : BufTy).Contents (Elt F) → (⟨S1024x2048x1, .f32⟩ : BufTy).Contents (Elt F)),
    StableHlo.binary main_v151 main_v69 main_v152 (subf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_23 (constant S_ .f32 0x3F800000#32),
    StableHlo.unary main_cst_23 main_v153 (broadcastInDim S1024x2048x1 ![] bcast_S_S1024x2048x1 : (⟨S_, .f32⟩ : BufTy).Contents (Elt F) → (⟨S1024x2048x1, .f32⟩ : BufTy).Contents (Elt F)) ]

/-- Operations 181 to 240 of @main. -/
abbrev ops3 : List (HloOp τ sig (Elt F)) :=
  [ StableHlo.binary main_v153 main_v52 main_v154 (subf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_24 (constant S_ .f32 0x3F800000#32),
    StableHlo.unary main_cst_24 main_v155 (broadcastInDim S1024x2048x1 ![] bcast_S_S1024x2048x1 : (⟨S_, .f32⟩ : BufTy).Contents (Elt F) → (⟨S1024x2048x1, .f32⟩ : BufTy).Contents (Elt F)),
    StableHlo.binary main_v155 main_v35 main_v156 (subf : (⟨S1024x2048x1, .f32⟩ : BufTy).Contents (Elt F) → (⟨S1024x2048x1, .f32⟩ : BufTy).Contents (Elt F) → (⟨S1024x2048x1, .f32⟩ : BufTy).Contents (Elt F)),
    StableHlo.nullary main_cst_25 (constant S_ .f32 0x3F800000#32),
    StableHlo.unary main_cst_25 main_v157 (broadcastInDim S1024x2048x1 ![] bcast_S_S1024x2048x1 : (⟨S_, .f32⟩ : BufTy).Contents (Elt F) → (⟨S1024x2048x1, .f32⟩ : BufTy).Contents (Elt F)),
    StableHlo.binary main_v157 main_v18 main_v158 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v144 main_v146 main_v159 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v159 main_v148 main_v160 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v160 main_v150 main_v161 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v161 main_v152 main_v162 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v156 main_v158 main_v163 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v154 main_v163 main_v164 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v162 main_v164 main_v165 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v156 main_v18 main_v166 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v154 main_v166 main_v167 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v162 main_v167 main_v168 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v35 main_v158 main_v169 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v154 main_v169 main_v170 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v162 main_v170 main_v171 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v35 main_v18 main_v172 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v154 main_v172 main_v173 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v162 main_v173 main_v174 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v156 main_v158 main_v175 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v52 main_v175 main_v176 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v162 main_v176 main_v177 (mulf : (⟨S1024x2048x1, .f32⟩ : BufTy).Contents (Elt F) → (⟨S1024x2048x1, .f32⟩ : BufTy).Contents (Elt F) → (⟨S1024x2048x1, .f32⟩ : BufTy).Contents (Elt F)),
    StableHlo.unary main_v1 main_v178 ((extractStridedSlice S1024x2048x1 ![0, 0, 0] · slices_S1024x2048x23_S1024x2048x1_0_0_0) : (⟨S1024x2048x23, .f32⟩ : BufTy).Contents (Elt F) → (⟨S1024x2048x1, .f32⟩ : BufTy).Contents (Elt F)),
    StableHlo.unary main_v1 main_v179 ((extractStridedSlice S1024x2048x1 ![0, 0, 1] · slices_S1024x2048x23_S1024x2048x1_0_0_1) : (⟨S1024x2048x23, .f32⟩ : BufTy).Contents (Elt F) → (⟨S1024x2048x1, .f32⟩ : BufTy).Contents (Elt F)),
    StableHlo.unary main_v1 main_v180 ((extractStridedSlice S1024x2048x1 ![0, 0, 2] · slices_S1024x2048x23_S1024x2048x1_0_0_2) : (⟨S1024x2048x23, .f32⟩ : BufTy).Contents (Elt F) → (⟨S1024x2048x1, .f32⟩ : BufTy).Contents (Elt F)),
    StableHlo.unary main_v1 main_v181 ((extractStridedSlice S1024x2048x1 ![0, 0, 3] · slices_S1024x2048x23_S1024x2048x1_0_0_3) : (⟨S1024x2048x23, .f32⟩ : BufTy).Contents (Elt F) → (⟨S1024x2048x1, .f32⟩ : BufTy).Contents (Elt F)),
    StableHlo.binary main_v168 main_v178 main_v182 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v171 main_v179 main_v183 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v174 main_v180 main_v184 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v177 main_v181 main_v185 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v165 main_v182 main_v186 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v165 main_v182 main_v187 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v186 main_v187 main_v188 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v188 main_v183 main_v189 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v188 main_v183 main_v190 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v189 main_v190 main_v191 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v191 main_v184 main_v192 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v191 main_v184 main_v193 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v192 main_v193 main_v194 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v194 main_v185 main_v195 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v194 main_v185 main_v196 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v195 main_v196 main_v197 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v171 main_v178 main_v198 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v174 main_v179 main_v199 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v177 main_v180 main_v200 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v168 main_v198 main_v201 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v168 main_v198 main_v202 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v201 main_v202 main_v203 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v203 main_v199 main_v204 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v203 main_v199 main_v205 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v204 main_v205 main_v206 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v206 main_v200 main_v207 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v206 main_v200 main_v208 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v207 main_v208 main_v209 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v174 main_v178 main_v210 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v177 main_v179 main_v211 (mulf : (⟨S1024x2048x1, .f32⟩ : BufTy).Contents (Elt F) → (⟨S1024x2048x1, .f32⟩ : BufTy).Contents (Elt F) → (⟨S1024x2048x1, .f32⟩ : BufTy).Contents (Elt F)) ]

/-- Operations 241 to 251 of @main. -/
abbrev ops4 : List (HloOp τ sig (Elt F)) :=
  [ StableHlo.binary main_v171 main_v210 main_v212 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v171 main_v210 main_v213 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v212 main_v213 main_v214 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v214 main_v211 main_v215 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v214 main_v211 main_v216 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v215 main_v216 main_v217 (subf : (⟨S1024x2048x1, .f32⟩ : BufTy).Contents (Elt F) → (⟨S1024x2048x1, .f32⟩ : BufTy).Contents (Elt F) → (⟨S1024x2048x1, .f32⟩ : BufTy).Contents (Elt F)),
    StableHlo.binary main_v177 main_v178 main_v218 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v174 main_v218 main_v219 (addf : (⟨S1024x2048x1, .f32⟩ : BufTy).Contents (Elt F) → (⟨S1024x2048x1, .f32⟩ : BufTy).Contents (Elt F) → (⟨S1024x2048x1, .f32⟩ : BufTy).Contents (Elt F)),
    StableHlo.binary main_v174 main_v218 main_v220 (mulf : (⟨S1024x2048x1, .f32⟩ : BufTy).Contents (Elt F) → (⟨S1024x2048x1, .f32⟩ : BufTy).Contents (Elt F) → (⟨S1024x2048x1, .f32⟩ : BufTy).Contents (Elt F)),
    StableHlo.binary main_v219 main_v220 main_v221 (subf : (⟨S1024x2048x1, .f32⟩ : BufTy).Contents (Elt F) → (⟨S1024x2048x1, .f32⟩ : BufTy).Contents (Elt F) → (⟨S1024x2048x1, .f32⟩ : BufTy).Contents (Elt F)),
    StableHlo.nary ![main_v177, main_v221, main_v217, main_v209, main_v197] main_v222 (fun u => concatenate S1024x2048x5 2 [⟨S1024x2048x1, u 0⟩, ⟨S1024x2048x1, u 1⟩, ⟨S1024x2048x1, u 2⟩, ⟨S1024x2048x1, u 3⟩, ⟨S1024x2048x1, u 4⟩] concatenates_S1024x2048x1_S1024x2048x1_S1024x2048x1_S1024x2048x1_S1024x2048x1_S1024x2048x5_d2) ]

set_option maxRecDepth 8192 in
/-- Every operation of stretch 0 reads and writes TensorCore buffers only. -/
theorem ops0_sub : (ops0 : List (HloOp τ sig (Elt F))).Forall fun op => op.bufs ⊆ tcRefs τ sig :=
  ⟨unary_bufs_sub .., unary_bufs_sub .., nullary_bufs_sub .., unary_bufs_sub .., nullary_bufs_sub .., unary_bufs_sub .., nullary_bufs_sub .., unary_bufs_sub .., ternary_bufs_sub .., nullary_bufs_sub .., unary_bufs_sub .., unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., nullary_bufs_sub .., unary_bufs_sub ..⟩
set_option maxRecDepth 8192 in
/-- Every operation of stretch 1 reads and writes TensorCore buffers only. -/
theorem ops1_sub : (ops1 : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub ..⟩
set_option maxRecDepth 8192 in
/-- Every operation of stretch 2 reads and writes TensorCore buffers only. -/
theorem ops2_sub : (ops2 : List (HloOp τ sig (Elt F))).Forall fun op => op.bufs ⊆ tcRefs τ sig :=
  ⟨binary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub ..⟩
set_option maxRecDepth 8192 in
/-- Every operation of stretch 3 reads and writes TensorCore buffers only. -/
theorem ops3_sub : (ops3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub ..⟩
set_option maxRecDepth 8192 in
/-- Every operation of stretch 4 reads and writes TensorCore buffers only. -/
theorem ops4_sub : (ops4 : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., binary_bufs_sub .., binary_bufs_sub .., nary_bufs_sub ..⟩

end Cert.ReferenceIdeal.RefRun

end
-- ==== Proof.RefRun.lean ====
/-
  The reference's run.

  @main of the reference is a straight line of 251 host operations on whole arrays, each writing one new buffer
  from buffers written before it: slices of the argument along its bit axis, constants broadcast, one scatter that
  writes a one into bit 0 of a zero pattern, pointwise sums, differences and products, and a final concatenation.
  The program prints the line in five stretches; each stretch IS the list of its operations run in order, and the
  five lists laid end to end are the whole line. A straight line runs to the fold of its operations' results over
  the launch contents: every buffer ends at the value its operation computes from the values of the buffers it
  reads, and a buffer no operation writes ends as it began.
-/
import proofs.«178595_j76312978916072_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the five stretches end to end. -/
abbrev ops : List (HloOp τ sig (Elt F)) :=
  ops0 ++ (ops1 ++ (ops2 ++ (ops3 ++ ops4)))

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl
set_option maxRecDepth 8192 in
theorem main_part4_eq (c : Dev nD) : main_part4 (F := F) c = seq ops4 := rfl

set_option maxRecDepth 8192 in
/-- @main is its operations run in order. -/
theorem main_eq (c : Dev nD) : main (F := F) c = seq ops := by
  simp only [ops, seq_append, ← main_part0_eq c, ← main_part1_eq c, ← main_part2_eq c, ← main_part3_eq c, ← main_part4_eq c]
  rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation of the line reads and writes TensorCore buffers only: stretch by stretch. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

set_option maxRecDepth 8192 in
/-- On every device, from any memory with zero counters: every weakly fair execution of @main terminates, and
    every buffer ends at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefRun

end
-- ==== Proof.RefScatter.lean ====
/-
  A scatter read at one index of its result.

  The scatter is a left fold over the update indices: each update index either lands at an operand index — and then
  the accumulated array is changed at that one index — or lands outside the operand and changes nothing. Reading the
  fold at a fixed operand index `i'` therefore only sees the update indices that land at `i'`:

  * if none lands at `i'`, the result at `i'` is the operand's element there, whatever the body;
  * if the body returns the update, at least one update index lands at `i'`, and all that do carry the same value,
    the result at `i'` is that value (the last one written wins, and every candidate for "last" agrees).

  Both are proved for an arbitrary list of steps by induction on the list, then specialised to the scatter's fold, for
  any dimension record. When every update index lands somewhere, at `g j` say, with `g` injective, the two statements
  become: the result at `g j₀` is the update at `j₀`, and the result off the range of `g` is the operand's.

  The second part applies this to the one scatter of this program: a rank-2 array of updates written into a rank-3
  operand at the single start index `0` on the last axis. The window axes of the updates go to the operand's first
  two axes and the last axis is inserted, so update index `(p, q)` lands at `(p, q, 0)`: the map is injective and its
  range is the plane "last coordinate `0`".
-/
import proofs.«178595_j76312978916072_1_alg».proof.ReferenceIdeal
import Idealize.ShloMosaic.Lib.ValueIdx

namespace Cert.ReferenceIdeal.Scatter

open Idealize.ShloMosaic Idealize.ShloMosaic.ValueIdx

/-! ## A fold of point updates, read at one index -/

section General

variable {α : Type}

/-- A left fold of steps over a list, read at the index `i'`. Each list element `n` has a landing place `res n`
    (possibly none), and a step whose element does not land at `i'` leaves the value at `i'` alone. If no element of
    the list lands at `i'`, the fold's value at `i'` is the initial array's. -/
theorem foldl_miss {ι κ : Type} (res : κ → Option ι) (step : (ι → α) → κ → ι → α) (i' : ι)
    (hmiss : ∀ r n, res n ≠ some i' → step r n i' = r i') :
    ∀ (L : List κ) (r : ι → α), (∀ n ∈ L, res n ≠ some i') → L.foldl step r i' = r i'
  | [], _, _ => rfl
  | n :: L, r, h => by
    rw [List.foldl_cons, foldl_miss res step i' hmiss L _ (fun m hm => h m (List.mem_cons_of_mem _ hm))]
    exact hmiss r n (h n (List.mem_cons_self ..))

/-- The same fold when a step whose element lands at `i'` OVERWRITES the value there with `val n`. If some element of
    the list lands at `i'` and every element that does carries the value `v`, the fold's value at `i'` is `v`: after
    the last element that lands at `i'` nothing touches that index again (`foldl_miss`), and that element wrote `v`. -/
theorem foldl_hit {ι κ : Type} (res : κ → Option ι) (step : (ι → α) → κ → ι → α) (i' : ι) (val : κ → α) (v : α)
    (hmiss : ∀ r n, res n ≠ some i' → step r n i' = r i')
    (hhit : ∀ r n, res n = some i' → step r n i' = val n) :
    ∀ (L : List κ) (r : ι → α), (∀ n ∈ L, res n = some i' → val n = v) → (∃ n ∈ L, res n = some i') →
      L.foldl step r i' = v
  | [], _, _, h => by obtain ⟨n, hn, _⟩ := h; cases hn
  | n :: L, r, hv, hex => by
    rw [List.foldl_cons]
    by_cases hL : ∃ m ∈ L, res m = some i'
    · -- a later element lands at `i'`: the head's step is absorbed into the initial array
      exact foldl_hit res step i' val v hmiss hhit L _ (fun m hm => hv m (List.mem_cons_of_mem _ hm)) hL
    · -- no later element lands at `i'`: the head is the one that does, and its value survives the tail
      rw [foldl_miss res step i' hmiss L _ (fun m hm e => hL ⟨m, hm, e⟩)]
      obtain ⟨m, hm, hres⟩ := hex
      rcases List.mem_cons.1 hm with rfl | hm'
      · rw [hhit r m hres]; exact hv m (List.mem_cons_self ..) hres
      · exact absurd ⟨m, hm', hres⟩ hL

/-! ## The scatter at an index, for any dimension record -/

/-- An operand index at which no update index lands keeps the operand's element, whatever the body `f`. -/
theorem scatter_of_miss {s si u : Shape} {w : Nat} (d : ScatterDims s si u) (f : α → α → α) (x : s.Idx → α)
    (idx : IVec si w) (upd : u.Idx → α) (i' : s.Idx) (h : ∀ j, d.resultIdx? j idx ≠ some i') :
    Host.scatter d f x idx upd i' = x i' := by
  unfold Host.scatter
  refine foldl_miss (fun n => d.resultIdx? (u.rowMajor.symm n) idx) _ i' ?_ _ x (fun n _ => h _)
  intro r n hn
  beta_reduce at hn ⊢
  cases hres : d.resultIdx? (u.rowMajor.symm n) idx with
  | none => rfl
  | some i =>
    have hne : i' ≠ i := fun e => hn (by rw [hres, e])
    exact if_neg hne

/-- With the body that returns the update: an operand index `i'` at which the update index `j₀` lands, every update
    index landing there carrying the same value as `j₀`, holds the update at `j₀`. (Every update index occurs in the
    fold's list, the row-major enumeration being a bijection.) -/
theorem scatter_set_of_hit {s si u : Shape} {w : Nat} (d : ScatterDims s si u) (x : s.Idx → α)
    (idx : IVec si w) (upd : u.Idx → α) (i' : s.Idx) (j₀ : u.Idx) (h₀ : d.resultIdx? j₀ idx = some i')
    (hv : ∀ j, d.resultIdx? j idx = some i' → upd j = upd j₀) :
    Host.scatter d (fun _ b => b) x idx upd i' = upd j₀ := by
  unfold Host.scatter
  refine foldl_hit (fun n => d.resultIdx? (u.rowMajor.symm n) idx) _ i' (fun n => upd (u.rowMajor.symm n)) (upd j₀)
    ?_ ?_ _ x (fun n _ hn => hv _ hn) ⟨u.rowMajor j₀, List.mem_finRange _, by simpa using h₀⟩
  · intro r n hn
    beta_reduce at hn ⊢
    cases hres : d.resultIdx? (u.rowMajor.symm n) idx with
    | none => rfl
    | some i =>
      have hne : i' ≠ i := fun e => hn (by rw [hres, e])
      exact if_neg hne
  · intro r n hn
    beta_reduce at hn ⊢
    rw [hn]
    exact if_pos rfl

/-- Every update index `j` lands, at `g j`, and `g` is injective: the result at `g j₀` is the update at `j₀`. -/
theorem scatter_set_of_injective {s si u : Shape} {w : Nat} (d : ScatterDims s si u) (x : s.Idx → α)
    (idx : IVec si w) (upd : u.Idx → α) (g : u.Idx → s.Idx) (hg : ∀ j, d.resultIdx? j idx = some (g j))
    (hinj : Function.Injective g) (j₀ : u.Idx) :
    Host.scatter d (fun _ b => b) x idx upd (g j₀) = upd j₀ :=
  scatter_set_of_hit d x idx upd (g j₀) j₀ (hg j₀) fun j hj => by
    rw [hg j] at hj
    rw [hinj (Option.some.inj hj)]

/-- Every update index `j` lands at `g j`: an operand index outside the range of `g` keeps the operand's element. -/
theorem scatter_of_not_range {s si u : Shape} {w : Nat} (d : ScatterDims s si u) (f : α → α → α) (x : s.Idx → α)
    (idx : IVec si w) (upd : u.Idx → α) (g : u.Idx → s.Idx) (hg : ∀ j, d.resultIdx? j idx = some (g j))
    (i' : s.Idx) (h : ∀ j, g j ≠ i') :
    Host.scatter d f x idx upd i' = x i' :=
  scatter_of_miss d f x idx upd i' fun j hj => by
    rw [hg j] at hj
    exact h j (Option.some.inj hj)

end General

/-! ## This program's scatter: updates `(p, q)` written at `(p, q, 0)` -/

section Instance

variable [Facts₀]

/-- The operand's axes that are not inserted: the first two. -/
theorem kept_eq : Shape.kept S1024x2048x8 [2] = [0, 1] := by decide

/-- The window starts at `0` on every operand axis: the last axis reads the start index, which is the word `0`, and
    the other two are not named by the map. -/
theorem start_eq (idx : IVec S1 32) (hidx : ∀ i, idx i = 0#32) (j' : S1024x2048.Idx) (a : Fin S1024x2048x8.rank) :
    scatter_S1024x2048x8_S1_S1024x2048_01_2_2_0.start j' idx a = 0 := by
  unfold ScatterDims.start
  split
  · rw [hidx]; rfl
  · rfl

/-- The window coordinate of update index `j'` on operand axis `a`: `j'`'s two coordinates on the first two axes, `0` on
    the inserted last axis — the coordinates of `(j' 0, j' 1, 0)`. -/
theorem window_eq (j' : S1024x2048.Idx) (a : Fin S1024x2048x8.rank) :
    scatter_S1024x2048x8_S1_S1024x2048_01_2_2_0.window j' a
      = ((ix3 (n0 := 1024) (n1 := 2048) (j' 0) (j' 1) (⟨0, by decide⟩ : Fin 8)) a).val := by
  have hk : scatter_S1024x2048x8_S1_S1024x2048_01_2_2_0.sKept = [0, 1] := kept_eq
  unfold ScatterDims.window
  match a with
  | ⟨0, _⟩ => rw [dif_pos (by rw [hk]; simp)]; rfl
  | ⟨1, _⟩ => rw [dif_pos (by rw [hk]; simp)]; rfl
  | ⟨2, _⟩ => rw [dif_neg (by rw [hk]; simp)]

/-- Update index `j'` lands at `(j' 0, j' 1, 0)`: start `0` plus the window coordinate, inside the operand on every axis. -/
theorem resultIdx_eq (idx : IVec S1 32) (hidx : ∀ i, idx i = 0#32) (j' : S1024x2048.Idx) :
    scatter_S1024x2048x8_S1_S1024x2048_01_2_2_0.resultIdx? j' idx
      = some (ix3 (n0 := 1024) (n1 := 2048) (j' 0) (j' 1) (⟨0, by decide⟩ : Fin 8)) := by
  unfold ScatterDims.resultIdx?
  have h : ∀ a, 0 ≤ scatter_S1024x2048x8_S1_S1024x2048_01_2_2_0.start j' idx a + scatter_S1024x2048x8_S1_S1024x2048_01_2_2_0.window j' a ∧
      scatter_S1024x2048x8_S1_S1024x2048_01_2_2_0.start j' idx a + scatter_S1024x2048x8_S1_S1024x2048_01_2_2_0.window j' a < S1024x2048x8.size a := by
    intro a
    rw [start_eq idx hidx, window_eq]
    have : ((ix3 (n0 := 1024) (n1 := 2048) (j' 0) (j' 1) (⟨0, by decide⟩ : Fin 8)) a).val < S1024x2048x8.size a :=
      ((ix3 (n0 := 1024) (n1 := 2048) (j' 0) (j' 1) (⟨0, by decide⟩ : Fin 8)) a).isLt
    omega
  rw [dif_pos h]
  congr 1
  funext a
  apply Fin.ext
  simp only [start_eq idx hidx j' a, window_eq j' a]
  omega

/-- The scatter at `(P, Q, j)`: the update at `(P, Q)` on the plane `j = 0` — `(P, Q)` is the one update index landing
    at `(P, Q, 0)` — and the operand's element off it, where no update index lands. -/
theorem scatter_apply {α : Type} (x : S1024x2048x8.Idx → α) (idx : IVec S1 32) (hidx : ∀ i, idx i = 0#32)
    (upd : S1024x2048.Idx → α) (P : Fin 1024) (Q : Fin 2048) (j : Nat) (hj : j < 8) :
    Host.scatter scatter_S1024x2048x8_S1_S1024x2048_01_2_2_0 (fun _ b => b) x idx upd (ix3 P Q ⟨j, hj⟩)
      = if j = 0 then upd (ix2 P Q) else x (ix3 P Q ⟨j, hj⟩) := by
  by_cases h0 : j = 0
  · subst h0
    rw [if_pos rfl]
    refine scatter_set_of_hit _ x idx upd _ (ix2 P Q) (resultIdx_eq idx hidx _) ?_
    intro j' hj'
    rw [resultIdx_eq idx hidx j'] at hj'
    have he := Option.some.inj hj'
    have e0 : j' 0 = P := congrFun he 0
    have e1 : j' 1 = Q := congrFun he 1
    rw [eq_ix2 j', e0, e1]
    rfl
  · rw [if_neg h0]
    refine scatter_of_miss _ _ x idx upd _ ?_
    intro j' hj'
    rw [resultIdx_eq idx hidx j'] at hj'
    have he := Option.some.inj hj'
    have e2 := congrArg Fin.val (congrFun he 2)
    exact h0 e2.symm

end Instance

end Cert.ReferenceIdeal.Scatter
-- ==== Proof.RefValue.lean ====
/-
  One entry of what the reference computes, and its run read at the result.

  After the line of host operations the result buffer holds the concatenation of five one-entry arrays, each a
  chain of pointwise sums, differences and products of one-entry slices of the argument, of broadcast constants, and
  of one-entry slices of the pattern `10000000` that a scatter builds by writing ones into bit 0 of an array of
  zeros. Read at position `(P, Q)` and output bit `k`, every operation acts on the fiber over `(P, Q)` alone: a
  slice picks a bit, a broadcast constant is its constant, the scattered pattern is one at bit 0 and zero at the other
  bits, arithmetic acts entry by entry, the concatenation picks its `k`-th piece. Pushed down to the bits of the
  argument at `(P, Q)` the result is, term for term, the circuit of the specification: the reference's result array is
  `G` of the argument.
-/
import proofs.«178595_j76312978916072_1_alg».proof.Proof.RefRun
import proofs.«178595_j76312978916072_1_alg».proof.Proof.RefScatter
import proofs.«178595_j76312978916072_1_alg».proof.Proof.Spec
import proofs.«178595_j76312978916072_1_alg».proof.Proof.LibFiber
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Fiber Cert.Spec Cert.ReferenceIdeal.RefRun

/-- A constant broadcast to any shape reads its float word's value everywhere. -/
theorem bcast_const_apply {s t : Shape} (dims : Fin s.rank → Fin t.rank) (h : s.BroadcastsInDim t dims) (φ : FTy) (w : BitVec φ.bits) (j : t.Idx) :
    broadcastInDim t dims h (constant (F := Ideal) s φ w) j = Ideal.ofBits φ w := rfl

/-- An integer constant broadcast to any shape is that word everywhere. -/
theorem bcast_constI {s t : Shape} (dims : Fin s.rank → Fin t.rank) (h : s.BroadcastsInDim t dims) (w : Nat) (v : BitVec w) :
    broadcastInDim t dims h (constantI s w v) = fun _ => v := rfl

/-- The pattern the scatter builds — the updates written at start index 0 of the bit axis into the operand — read at
    bit `j` of position `(P, Q)`: the update of that position at bit 0, the operand elsewhere. -/
theorem pattern_apply {α : Type} (x : S1024x2048x8.Idx → α) (upd : S1024x2048.Idx → α) (P : Fin 1024) (Q : Fin 2048) (j : Nat) (hj : j < 8) :
    Host.scatter scatter_S1024x2048x8_S1_S1024x2048_01_2_2_0 (fun _ b => b) x (fun _ => 0#32) upd (ix3 P Q ⟨j, hj⟩)
      = if j = 0 then upd (ix2 P Q) else x (ix3 P Q ⟨j, hj⟩) :=
  Scatter.scatter_apply x (fun _ => 0#32) (fun _ => rfl) upd P Q j hj

set_option maxHeartbeats 16000000 in
set_option maxRecDepth 8192 in
/-- The result buffer after the line, at position `(P, Q)` and bit `k`: the circuit of the argument's 32 bits at
    `(P, Q)`. The fold of the operations' results is opened to the operations' composed term, and that term is read
    at the index; the two sides are then the same term. -/
theorem result_apply (V : Valuation τ sig (Elt Ideal)) (P : Fin 1024) (Q : Fin 2048) (k : Fin 5) :
    (after ops V (Proc.devRef .tc main_v222) : S1024x2048x5.Idx → Ideal .f32) (ix3 P Q k)
      = circ zeroW oneW twoW (fun j => (V (Proc.devRef .tc main_arg0) : S1024x2048x32.Idx → Ideal .f32) (ix3 P Q j)) k := by
  simp only [ops, ops0, ops1, ops2, ops3, ops4, after_append]
  after_results_simp
  dsimp only [Matrix.cons_val]
  after_results_simp
  simp (decide := true) only [concat5_last_apply, slice_last_apply, addf_apply, subf_apply, mulf_apply, bcast_const_apply, bcast_constI, pattern_apply,
    Fin.val_zero, Nat.add_zero, Nat.reduceAdd, ite_true, ite_false, if_true, if_false,
    circ, faSum, faCarry, gxor, gor, gand, gnot, zeroW, oneW, twoW]

set_option maxHeartbeats 4000000 in
set_option maxRecDepth 8192 in
/-- No operation of the line writes the argument: it ends as it began. -/
theorem arg_kept (V : Valuation τ sig (Elt Ideal)) : after ops V (Proc.devRef .tc main_arg0) = V (Proc.devRef .tc main_arg0) := by
  simp only [ops, ops0, ops1, ops2, ops3, ops4, after_append]
  after_results_simp

/-- The reference's run, read: every weakly fair execution terminates with the result array at `G` of the argument
    array, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v222) = G (m ((c.tc : Thread nD τ).loc main_arg0))
      ∧ r.2.mem ((c.tc : Thread nD τ).loc main_arg0) = m ((c.tc : Thread nD τ).loc main_arg0) :=
  (θ_run defs _ _).mono (fun _ h c => ⟨(h c main_v222).trans (funext fun i => by
        obtain ⟨P, Q, k, rfl⟩ : ∃ (P : Fin 1024) (Q : Fin 2048) (k : Fin 5), i = ix3 P Q k := ⟨i 0, i 1, i 2, eq_ix3 i⟩
        exact (result_apply (launchContents m c) P Q k).trans (G_apply _ P Q k).symm),
      (h c main_arg0).trans (arg_kept (launchContents m c))⟩)
    (run_after m ρ)

end Cert.ReferenceIdeal.RefValue

end
-- ==== Proof.lean ====
/-
  The certificate: the kernel and the reference compute one function of the argument.

  The argument is an array of 1024 × 2048 positions, each the 32 bits of a float as numbers, and the result holds
  five bits per position: the top bits of the integer the float encodes, recovered by a circuit of polynomial logic
  gates (Proof/Spec.lean). The kernel cuts the positions into 8 × 32 blocks and evaluates the circuit on each block;
  the reference evaluates it on the whole array, operation by operation, on the host. Both evaluate the SAME
  expression at every position, so at the ideal instance their results agree entry by entry with no law of
  arithmetic used, and the precondition (finite inputs) is never opened:
  * the kernel's result array after its run is `G` of the argument (Proof/KernelPoint.lean: one stored entry is the
    circuit of the staged block's bits; Proof/KernelWhole.lean: the blocks tile the array);
  * the reference's result array after its run is `G` of the argument (Proof/RefRun.lean: the run of the line of host
    operations; Proof/RefScatter.lean: the scattered bit pattern read at an index; Proof/RefValue.lean: the composed
    term read at an index).
  The two kernel frames are the generated frame certificates; the reference's frame is its run with the result
  dropped; the idealization rewrote nothing, so `preserves` is trivial.
-/
import proofs.«178595_j76312978916072_1_alg».proof.Defs
import proofs.«178595_j76312978916072_1_alg».proof.Proof.Gen.Kernel
import proofs.«178595_j76312978916072_1_alg».proof.Proof.Gen.Kernel.Skeleton
import proofs.«178595_j76312978916072_1_alg».proof.Proof.Gen.Kernel.Launch
import proofs.«178595_j76312978916072_1_alg».proof.Proof.Gen.Kernel.Points
import proofs.«178595_j76312978916072_1_alg».proof.Proof.Gen.Kernel.Frame
import proofs.«178595_j76312978916072_1_alg».proof.Proof.Gen.KernelIdeal
import proofs.«178595_j76312978916072_1_alg».proof.Proof.Gen.KernelIdeal.Skeleton
import proofs.«178595_j76312978916072_1_alg».proof.Proof.Gen.KernelIdeal.Launch
import proofs.«178595_j76312978916072_1_alg».proof.Proof.Gen.KernelIdeal.Points
import proofs.«178595_j76312978916072_1_alg».proof.Proof.Gen.KernelIdeal.Frame
import proofs.«178595_j76312978916072_1_alg».proof.Proof.Gen.ReferenceIdeal
import proofs.«178595_j76312978916072_1_alg».proof.Proof.Gen.Pre_finite_inputs
import proofs.«178595_j76312978916072_1_alg».proof.Proof.KernelWhole
import proofs.«178595_j76312978916072_1_alg».proof.Proof.RefValue
import Idealize.ShloMosaic.Adequacy
import Idealize.ShloMosaic.Init

noncomputable section

namespace Cert.Proof

open Idealize.ShloMosaic Idealize.SL.Sem Cert.Kernel

/-- The word-level kernel runs and leaves its argument unchanged: the generated frame. -/
theorem frame_k : Cert.frame_Kernel := fun m ρ _ => Cert.Kernel.Gen.frame m ρ

/-- The idealized kernel runs and leaves its argument unchanged: the generated frame. -/
theorem frame_ki : Cert.frame_KernelIdeal := fun m ρ _ => Cert.KernelIdeal.Gen.frame m ρ

/-- The reference runs and leaves its argument unchanged: its run, the result dropped. -/
theorem frame_ri : Cert.frame_ReferenceIdeal := fun m ρ _ =>
  (θ_run Cert.ReferenceIdeal.defs _ _).mono (fun _ h c => (h c).2) (Cert.ReferenceIdeal.RefValue.run m ρ)

/-- From memories that agree on the argument both programs end with the result array at `G` of the argument. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
